-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  let main_c_2 : IVec S_ 32 := constantI S_ 32 21#32
  let main_v8 : IVec S8x512x512 32 := broadcastInDim S8x512x512 ![] bcast_S_S8x512x512 main_c_2
  let main_v9 : IVec S8x512x512 1 := cmpi .slt main_arg1 main_v8
  let main_c_3 : IVec S_ 1 := constantI S_ 1 1#1
  let main_v10 : IVec S_ 1 := (fun x v => Host.reduce IntOp.andi x v reducesTo_S8x512x512_S_d0_1_2 h_S_) main_v9 main_c_3
  let main_v11 : IVec S_ 1 := andi main_v7 main_v10
  main_v11
-- ==== Kernel.lean ====
abbrev S8x21x512x512 : Shape := ⟨4, ![8, 21, 512, 512]⟩
abbrev S8x512x512 : Shape := ⟨3, ![8, 512, 512]⟩
abbrev S8x21 : Shape := ⟨2, ![8, 21]⟩
abbrev S1x1 : Shape := ⟨2, ![1, 1]⟩
abbrev S8x21x8x512 : Shape := ⟨4, ![8, 21, 8, 512]⟩
abbrev S8x8x512 : Shape := ⟨3, ![8, 8, 512]⟩
abbrev S8x1x8x512 : Shape := ⟨4, ![8, 1, 8, 512]⟩
abbrev S1x21x1x1 : Shape := ⟨4, ![1, 21, 1, 1]⟩
abbrev S8x21x8 : Shape := ⟨3, ![8, 21, 8]⟩
abbrev S8x8 : Shape := ⟨2, ![8, 8]⟩
abbrev S8x8x1 : Shape := ⟨3, ![8, 8, 1]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩
abbrev S8 : Shape := ⟨1, ![8]⟩

abbrev nBuf : Space → Nat
  | .hbm => 64
  | .vmem => 9
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x21, .f32⟩
  | .hbm, ⟨3, _⟩ => ⟨S8x21, .f32⟩
  | .hbm, ⟨4, _⟩ => ⟨S8x21, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S8x21, .f32⟩
  | .hbm, ⟨9, _⟩ => ⟨S8x21, .f32⟩
  | .hbm, ⟨10, _⟩ => ⟨S_, .f32⟩
  | .hbm, ⟨11, _⟩ => ⟨S8x21, .f32⟩
  | .hbm, ⟨12, _⟩ => ⟨S8x21, .f32⟩
  | .hbm, ⟨13, _⟩ => ⟨S8x21, .f32⟩
  | .hbm, ⟨14, _⟩ => ⟨S_, .f32⟩
  | .hbm, ⟨15, _⟩ => ⟨S8x21, .f32⟩
  | .hbm, ⟨16, _⟩ => ⟨S8x21, .f32⟩
  | .hbm, ⟨17, _⟩ => ⟨S8x21, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x21, .f32⟩
  | .hbm, ⟨30, _⟩ => ⟨S8x21, .f32⟩
  | .hbm, ⟨31, _⟩ => ⟨S8x21, .f32⟩
  | .hbm, ⟨32, _⟩ => ⟨S8x21, .f32⟩
  | .hbm, ⟨33, _⟩ => ⟨S_, .f32⟩
  | .hbm, ⟨34, _⟩ => ⟨S8x21, .f32⟩
  | .hbm, ⟨35, _⟩ => ⟨S8x21, .f32⟩
  | .hbm, ⟨36, _⟩ => ⟨S8x21, .f32⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S8x21x8x512, .f32⟩
  | .local _ .vmem, ⟨1, _⟩ => ⟨S8x21x8x512, .f32⟩
  | .local _ .vmem, ⟨2, _⟩ => ⟨S8x8x512, .i32⟩
  | .local _ .vmem, ⟨3, _⟩ => ⟨S8x8x512, .i32⟩
  | .local _ .vmem, ⟨4, _⟩ => ⟨S8x21, .f32⟩
  | .local _ .vmem, ⟨5, _⟩ => ⟨S8x21, .f32⟩
  | .local _ .vmem, ⟨6, _⟩ => ⟨S8x21, .f32⟩
  | .local _ .vmem, ⟨7, _⟩ => ⟨S1x1, .f32⟩
  | .local _ .vmem, ⟨8, _⟩ => ⟨S1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_cst_6 : Ref sig .tc := ⟨.hbm, 26, rfl⟩
abbrev main_v13 : Ref sig .tc := ⟨.hbm, 27, rfl⟩
abbrev main_cst_7 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_8 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_cst_10 : Ref sig .tc := ⟨.hbm, 39, rfl⟩
abbrev main_v22 : Ref sig .tc := ⟨.hbm, 40, rfl⟩
abbrev main_cst_11 : Ref sig .tc := ⟨.hbm, 41, rfl⟩
abbrev main_v23 : Ref sig .tc := ⟨.hbm, 42, rfl⟩
abbrev main_cst_12 : Ref sig .tc := ⟨.hbm, 43, rfl⟩
abbrev main_v24 : Ref sig .tc := ⟨.hbm, 44, rfl⟩
abbrev main_cst_13 : Ref sig .tc := ⟨.hbm, 45, rfl⟩
abbrev main_v25 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_v28 : Ref sig .tc := ⟨.hbm, 50, rfl⟩
abbrev main_cst_15 : Ref sig .tc := ⟨.hbm, 51, rfl⟩
abbrev main_v29 : Ref sig .tc := ⟨.hbm, 52, rfl⟩
abbrev main_cst_16 : Ref sig .tc := ⟨.hbm, 53, rfl⟩
abbrev main_v30 : Ref sig .tc := ⟨.hbm, 54, rfl⟩
abbrev main_cst_17 : Ref sig .tc := ⟨.hbm, 55, rfl⟩
abbrev main_v31 : Ref sig .tc := ⟨.hbm, 56, rfl⟩
abbrev main_v32 : Ref sig .tc := ⟨.hbm, 57, rfl⟩
abbrev main_cst_18 : Ref sig .tc := ⟨.hbm, 58, rfl⟩
abbrev main_v33 : Ref sig .tc := ⟨.hbm, 59, rfl⟩
abbrev main_v34 : Ref sig .tc := ⟨.hbm, 60, rfl⟩
abbrev main_cst_19 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x21x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S8x21_S8x21_0_0 : ∀ a, (![0, 0] : Fin 2 → Nat) a + S8x21.size a ≤ S8x21.size a
  h_S8x21 : 0 < S8x21.numel
  inb_S1x1_S1x1_0_0 : ∀ a, (![0, 0] : Fin 2 → Nat) a + S1x1.size a ≤ S1x1.size a
  h_S1x1 : 0 < S1x1.numel
  inb_S8x21x8x512_S8x21x8x512_0_0_0_0 : ∀ a, (![0, 0, 0, 0] : Fin 4 → Nat) a + S8x21x8x512.size a ≤ S8x21x8x512.size a
  h_S8x21x8x512 : 0 < S8x21x8x512.numel
  inb_S8x8x512_S8x8x512_0_0_0 : ∀ a, (![0, 0, 0] : Fin 3 → Nat) a + S8x8x512.size a ≤ S8x8x512.size a
  h_S8x8x512 : 0 < S8x8x512.numel
  reduces_S8x21x8x512_S8x8x512 : S8x21x8x512.Reduces [1] S8x8x512
  shapeCasts_S8x8x512_S8x1x8x512 : S8x8x512.ShapeCasts S8x1x8x512
  broadcasts_S8x1x8x512_S8x21x8x512 : S8x1x8x512.Broadcasts S8x21x8x512
  iota_S1x21x1x1_d1_w32 : S1x21x1x1.Iotas .tc 32 [1]
  broadcasts_S1x21x1x1_S8x21x8x512 : S1x21x1x1.Broadcasts S8x21x8x512
  natLt_1_32 : 1 < 32
  reduces_S8x21x8x512_S8x21x8 : S8x21x8x512.Reduces [3] S8x21x8
  reduces_S8x21x8_S8x21 : S8x21x8.Reduces [2] S8x21
  reduces_S8x8x512_S8x8 : S8x8x512.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S8x21_S8x21 : S8x21.ShapeCasts S8x21
  shapeCasts_S1x1_S1x1 : S1x1.ShapeCasts S1x1
  shapeCasts_S1x1x1_S1x1 : S1x1x1.ShapeCasts S1x1
  bcast_S_S8x21 : S_.BroadcastsInDim S8x21 (![] : Fin 0 → Fin S8x21.rank)
  reducesTo_S8x21_S8_d1 : S8x21.ReducesTo [1] S8
  h_S_ : 0 < S_.numel
  reducesTo_S8_S_d0 : S8.ReducesTo [0] S_
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x21x8x512.size a ≤ S8x21x512x512.size a
  hwx0_0 : ∀ i : grid0.Coords, EltTy.bits .f32 = 32 ∨ (Rect.block (s := S8x21x512x512) S8x21x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x512.size a ≤ S8x512x512.size a
  hwx0_1 : ∀ i : grid0.Coords, EltTy.bits .i32 = 32 ∨ (Rect.block (s := S8x512x512) S8x8x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x21.size a ≤ S8x21.size a
  hwx0_2 : ∀ i : grid0.Coords, EltTy.bits .f32 = 32 ∨ (Rect.block (s := S8x21) S8x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x21.size a ≤ S8x21.size a
  hwx0_3 : ∀ i : grid0.Coords, EltTy.bits .f32 = 32 ∨ (Rect.block (s := S8x21) S8x21.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x21.size a ≤ S8x21.size a
  hwx0_4 : ∀ i : grid0.Coords, EltTy.bits .f32 = 32 ∨ (Rect.block (s := S8x21) S8x21.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S8x21x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x21.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x21.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x21.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S1x21x1x1 : Shape := ⟨4, ![1, 21, 1, 1]⟩
abbrev S8x21 : Shape := ⟨2, ![8, 21]⟩
abbrev S8 : Shape := ⟨1, ![8]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 127
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x21x512x512, .f32⟩
  | .hbm, ⟨16, _⟩ => ⟨S8x21x512x512, .f32⟩
  | .hbm, ⟨17, _⟩ => ⟨S8x21x512x512, .f32⟩
  | .hbm, ⟨18, _⟩ => ⟨S8x1x512x512, .i32⟩
  | .hbm, ⟨19, _⟩ => ⟨S1x21x1x1, .i32⟩
  | .hbm, ⟨20, _⟩ => ⟨S8x21x512x512, .i32⟩
  | .hbm, ⟨21, _⟩ => ⟨S8x21x512x512, .i32⟩
  | .hbm, ⟨22, _⟩ => ⟨S8x21x512x512, .i1⟩
  | .hbm, ⟨23, _⟩ => ⟨S8x21x512x512, .f32⟩
  | .hbm, ⟨24, _⟩ => ⟨S8x21x512x512, .f32⟩
  | .hbm, ⟨25, _⟩ => ⟨S_, .f32⟩
  | .hbm, ⟨26, _⟩ => ⟨S8x21, .f32⟩
  | .hbm, ⟨27, _⟩ => ⟨S_, .f32⟩
  | .hbm, ⟨28, _⟩ => ⟨S8x21, .f32⟩
  | .hbm, ⟨29, _⟩ => ⟨S_, .f32⟩
  | .hbm, ⟨30, _⟩ => ⟨S8x21, .f32⟩
  | .hbm, ⟨31, _⟩ => ⟨S_, .f32⟩
  | .hbm, ⟨32, _⟩ => ⟨S8x21, .f32⟩
  | .hbm, ⟨33, _⟩ => ⟨S8x21, .f32⟩
  | .hbm, ⟨34, _⟩ => ⟨S_, .f32⟩
  | .hbm, ⟨35, _⟩ => ⟨S8x21, .f32⟩
  | .hbm, ⟨36, _⟩ => ⟨S8x21, .f32⟩
  | .hbm, ⟨37, _⟩ => ⟨S8x21, .f32⟩
  | .hbm, ⟨38, _⟩ => ⟨S_, .f32⟩
  | .hbm, ⟨39, _⟩ => ⟨S8x21, .f32⟩
  | .hbm, ⟨40, _⟩ => ⟨S8x21, .f32⟩
  | .hbm, ⟨41, _⟩ => ⟨S8x21, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x21, .f32⟩
  | .hbm, ⟨54, _⟩ => ⟨S8x21, .f32⟩
  | .hbm, ⟨55, _⟩ => ⟨S8x21, .f32⟩
  | .hbm, ⟨56, _⟩ => ⟨S8x21, .f32⟩
  | .hbm, ⟨57, _⟩ => ⟨S_, .f32⟩
  | .hbm, ⟨58, _⟩ => ⟨S8x21, .f32⟩
  | .hbm, ⟨59, _⟩ => ⟨S8x21, .f32⟩
  | .hbm, ⟨60, _⟩ => ⟨S8x21, .f32⟩
  | .hbm, ⟨61, _⟩ => ⟨S_, .f32⟩
  | .hbm, ⟨62, _⟩ => ⟨S8, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8x1x512x512, .i32⟩
  | .hbm, ⟨72, _⟩ => ⟨S_, .i32⟩
  | .hbm, ⟨73, _⟩ => ⟨S8x1x512x512, .i32⟩
  | .hbm, ⟨74, _⟩ => ⟨S8x1x512x512, .i1⟩
  | .hbm, ⟨75, _⟩ => ⟨S_, .i32⟩
  | .hbm, ⟨76, _⟩ => ⟨S8x1x512x512, .i32⟩
  | .hbm, ⟨77, _⟩ => ⟨S8x1x512x512, .i32⟩
  | .hbm, ⟨78, _⟩ => ⟨S8x1x512x512, .i32⟩
  | .hbm, ⟨79, _⟩ => ⟨S8x1x512x512x1, .i32⟩
  | .hbm, ⟨80, _⟩ => ⟨S1, .i32⟩
  | .hbm, ⟨81, _⟩ => ⟨S_, .i32⟩
  | .hbm, ⟨82, _⟩ => ⟨S8x1x512x512x1, .i32⟩
  | .hbm, ⟨83, _⟩ => ⟨S8x1x512x512x1, .i1⟩
  | .hbm, ⟨84, _⟩ => ⟨S1x1x1x1x1, .i32⟩
  | .hbm, ⟨85, _⟩ => ⟨S8x1x512x512x1, .i32⟩
  | .hbm, ⟨86, _⟩ => ⟨S8x1x512x512x1, .i1⟩
  | .hbm, ⟨87, _⟩ => ⟨S8x1x512x512x1, .i1⟩
  | .hbm, ⟨88, _⟩ => ⟨S_, .i1⟩
  | .hbm, ⟨89, _⟩ => ⟨S8x1x512x512, .i1⟩
  | .hbm, ⟨90, _⟩ => ⟨S8x1x512x512, .f32⟩
  | .hbm, ⟨91, _⟩ => ⟨S_, .f32⟩
  | .hbm, ⟨92, _⟩ => ⟨S8x1x512x512, .f32⟩
  | .hbm, ⟨93, _⟩ => ⟨S8x1x512x512, .f32⟩
  | .hbm, ⟨94, _⟩ => ⟨S8x512x512, .f32⟩
  | .hbm, ⟨95, _⟩ => ⟨S8x512x512, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S8x512x512, .f32⟩
  | .hbm, ⟨101, _⟩ => ⟨S8x512x512, .f32⟩
  | .hbm, ⟨102, _⟩ => ⟨S_, .f32⟩
  | .hbm, ⟨103, _⟩ => ⟨S8x512x512, .f32⟩
  | .hbm, ⟨104, _⟩ => ⟨S8x512x512, .f32⟩
  | .hbm, ⟨105, _⟩ => ⟨S_, .f32⟩
  | .hbm, ⟨106, _⟩ => ⟨S8x512x512, .f32⟩
  | .hbm, ⟨107, _⟩ => ⟨S8x512x512, .f32⟩
  | .hbm, ⟨108, _⟩ => ⟨S_, .f32⟩
  | .hbm, ⟨109, _⟩ => ⟨S8x512x512, .f32⟩
  | .hbm, ⟨110, _⟩ => ⟨S8x512x512, .f32⟩
  | .hbm, ⟨111, _⟩ => ⟨S8x512x512, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_cst_2 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_4 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_5 : Ref sig .tc := ⟨.hbm, 42, rfl⟩
abbrev main_v15 : Ref sig .tc := ⟨.hbm, 43, rfl⟩
abbrev main_cst_6 : Ref sig .tc := ⟨.hbm, 44, rfl⟩
abbrev main_v16 : Ref sig .tc := ⟨.hbm, 45, rfl⟩
abbrev main_cst_7 : Ref sig .tc := ⟨.hbm, 46, rfl⟩
abbrev main_v17 : Ref sig .tc := ⟨.hbm, 47, rfl⟩
abbrev main_cst_8 : Ref sig .tc := ⟨.hbm, 48, rfl⟩
abbrev main_v18 : Ref sig .tc := ⟨.hbm, 49, rfl⟩
abbrev main_cst_9 : Ref sig .tc := ⟨.hbm, 50, rfl⟩
abbrev main_v19 : Ref sig .tc := ⟨.hbm, 51, rfl⟩
abbrev main_cst_10 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_11 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_12 : Ref sig .tc := ⟨.hbm, 61, rfl⟩
abbrev main_v27 : Ref sig .tc := ⟨.hbm, 62, rfl⟩
abbrev main_cst_13 : Ref sig .tc := ⟨.hbm, 63, rfl⟩
abbrev main_v28 : Ref sig .tc := ⟨.hbm, 64, rfl⟩
abbrev main_cst_14 : Ref sig .tc := ⟨.hbm, 65, rfl⟩
abbrev main_v29 : Ref sig .tc := ⟨.hbm, 66, rfl⟩
abbrev main_cst_15 : Ref sig .tc := ⟨.hbm, 67, rfl⟩
abbrev main_v30 : Ref sig .tc := ⟨.hbm, 68, rfl⟩
abbrev main_cst_16 : Ref sig .tc := ⟨.hbm, 69, rfl⟩
abbrev main_v31 : Ref sig .tc := ⟨.hbm, 70, rfl⟩
abbrev main_v32 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_17 : Ref sig .tc := ⟨.hbm, 96, rfl⟩
abbrev main_v36 : Ref sig .tc := ⟨.hbm, 97, rfl⟩
abbrev main_cst_18 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_19 : Ref sig .tc := ⟨.hbm, 102, rfl⟩
abbrev main_v40 : Ref sig .tc := ⟨.hbm, 103, rfl⟩
abbrev main_v41 : Ref sig .tc := ⟨.hbm, 104, rfl⟩
abbrev main_cst_20 : Ref sig .tc := ⟨.hbm, 105, rfl⟩
abbrev main_v42 : Ref sig .tc := ⟨.hbm, 106, rfl⟩
abbrev main_v43 : Ref sig .tc := ⟨.hbm, 107, rfl⟩
abbrev main_cst_21 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_22 : Ref sig .tc := ⟨.hbm, 112, rfl⟩
abbrev main_v47 : Ref sig .tc := ⟨.hbm, 113, rfl⟩
abbrev main_cst_23 : Ref sig .tc := ⟨.hbm, 114, rfl⟩
abbrev main_v48 : Ref sig .tc := ⟨.hbm, 115, rfl⟩
abbrev main_cst_24 : Ref sig .tc := ⟨.hbm, 116, rfl⟩
abbrev main_v49 : Ref sig .tc := ⟨.hbm, 117, rfl⟩
abbrev main_cst_25 : Ref sig .tc := ⟨.hbm, 118, rfl⟩
abbrev main_v50 : Ref sig .tc := ⟨.hbm, 119, rfl⟩
abbrev main_v51 : Ref sig .tc := ⟨.hbm, 120, rfl⟩
abbrev main_cst_26 : Ref sig .tc := ⟨.hbm, 121, rfl⟩
abbrev main_v52 : Ref sig .tc := ⟨.hbm, 122, rfl⟩
abbrev main_v53 : Ref sig .tc := ⟨.hbm, 123, rfl⟩
abbrev main_cst_27 : Ref sig .tc := ⟨.hbm, 124, rfl⟩
abbrev main_v54 : Ref sig .tc := ⟨.hbm, 125, rfl⟩
abbrev main_v55 : Ref sig .tc := ⟨.hbm, 126, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S1x21x1x1_S8x21x512x512_0_1_2_3 : S1x21x1x1.BroadcastsInDim S8x21x512x512 (![0, 1, 2, 3] : Fin 4 → Fin S8x21x512x512.rank)
  reducesTo_S8x21x512x512_S8x21_d2_3 : S8x21x512x512.ReducesTo [2, 3] S8x21
  bcast_S_S8x21 : S_.BroadcastsInDim S8x21 (![] : Fin 0 → Fin S8x21.rank)
  reducesTo_S8x21_S8_d1 : S8x21.ReducesTo [1] S8
  reducesTo_S8_S_d0 : S8.ReducesTo [0] S_
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  reducesTo_S8x512x512_S_d0_1_2 : S8x512x512.ReducesTo [0, 1, 2] S_
  gather_S8x21x512x512_S8x1x512x512x1_S8x1x512x512_n_1_023_023_1_4_1111_wf : GatherDims.WF S8x21x512x512 S8x1x512x512x1 S8x1x512x512 [] [1] [0, 2, 3] [1] [0, 2, 3] 4 ![1, 1, 1, 1]

variable [Facts₀]

def gather_S8x21x512x512_S8x1x512x512x1_S8x1x512x512_n_1_023_023_1_4_1111 : GatherDims S8x21x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x21x512x512_S8x1x512x512x1_S8x1x512x512_n_1_023_023_1_4_1111_wf

class Facts : Prop extends Facts₀ where

variable [Facts]
-- ==== Proof.Spec.lean ====
/-
  The mathematics both programs compute, stated once over plain index types.

  At one pixel (b, h, w) the class scores form a column `col : Fin 21 → EReal`. Its log-softmax is
  `colLogp col c = (col c - max col) - log (∑ k, exp (col k - max col))`, its softmax `colProb = exp ∘ colLogp`; the label's
  one-hot row is `hot lab c` (1 where the label word is class c, else 0); the pixel's cross entropy is minus the one-hot
  weighted sum of the log-probabilities, `colCe`; and its focal term is `(1 - exp (-ce))² · ce`, `colFocal`.
  Over the whole arrays: per (batch, class) the three sums over the 512 × 512 pixels of prob · hot, prob and hot
  (`specI`, `specP`, `specT`), and the two totals over every pixel of ce and of the focal term (`specCe`, `specFo`).
  `tail` is the closing arithmetic both programs share: the Dice and Jaccard ratios summed over classes and averaged
  over the batch, the two means over the 2²¹ pixels, and their weighted sum.
-/
import Idealize.ShloMosaic.PureOps.Ideal
import Idealize.ShloMosaic.PureOps.Ideal.Laws
import Idealize.ShloMosaic.Lib.ValueIdx

noncomputable section

namespace Cert.Combo

open Idealize.ShloMosaic Idealize.ShloMosaic.ValueIdx

abbrev SP : Shape := ⟨4, ![8, 21, 512, 512]⟩
abbrev ST : Shape := ⟨3, ![8, 512, 512]⟩
abbrev SBC : Shape := ⟨2, ![8, 21]⟩
abbrev SB : Shape := ⟨1, ![8]⟩
abbrev S0 : Shape := ⟨0, ![]⟩

/-! ## One pixel: a column of 21 class scores and a label word -/

/-- The largest score of the column (the fold of `max` from `⊥`). -/
def colMax (col : Fin 21 → EReal) : EReal := (Finset.univ : Finset (Fin 21)).fold max ⊥ col

/-- The log-softmax of the column at class `c`. -/
def colLogp (col : Fin 21 → EReal) (c : Fin 21) : EReal :=
  (col c - colMax col) - Ideal.log (∑ k : Fin 21, Ideal.exp (col k - colMax col))

/-- The softmax of the column at class `c`. -/
def colProb (col : Fin 21 → EReal) (c : Fin 21) : EReal := Ideal.exp (colLogp col c)

/-- The one-hot row of a label word: 1 at the class the word names, 0 elsewhere. -/
def hot (lab : BitVec 32) (c : Fin 21) : EReal := if lab = BitVec.ofNat 32 c.val then 1 else 0

/-- The pixel's cross entropy: minus the one-hot weighted sum of the log-probabilities. -/
def colCe (col : Fin 21 → EReal) (lab : BitVec 32) : EReal := 0 - ∑ c : Fin 21, colLogp col c * hot lab c

/-- The pixel's focal term `(1 - exp (-ce))² · ce`. -/
def colFocal (col : Fin 21 → EReal) (lab : BitVec 32) : EReal :=
  (1 * ((1 - Ideal.exp (0 - colCe col lab)) * (1 - Ideal.exp (0 - colCe col lab)))) * colCe col lab

/-! ## The whole arrays -/

/-- The column of scores at pixel (b, h, w). -/
def colOf (x : SP.Idx → EReal) (b : Fin 8) (h w : Fin 512) : Fin 21 → EReal := fun c => x (ix4 b c h w)

/-- Per (batch, class): the sum over the pixels of prob · hot. -/
def specI (x : SP.Idx → EReal) (tg : ST.Idx → BitVec 32) : SBC.Idx → EReal := fun j =>
  ∑ h : Fin 512, ∑ w : Fin 512, colProb (colOf x (j 0) h w) (j 1) * hot (tg (ix3 (j 0) h w)) (j 1)

/-- Per (batch, class): the sum over the pixels of prob. -/
def specP (x : SP.Idx → EReal) : SBC.Idx → EReal := fun j =>
  ∑ h : Fin 512, ∑ w : Fin 512, colProb (colOf x (j 0) h w) (j 1)

/-- Per (batch, class): the number of pixels labelled with the class. -/
def specT (tg : ST.Idx → BitVec 32) : SBC.Idx → EReal := fun j =>
  ∑ h : Fin 512, ∑ w : Fin 512, hot (tg (ix3 (j 0) h w)) (j 1)

/-- The total cross entropy over every pixel. -/
def specCe (x : SP.Idx → EReal) (tg : ST.Idx → BitVec 32) : EReal :=
  ∑ b : Fin 8, ∑ h : Fin 512, ∑ w : Fin 512, colCe (colOf x b h w) (tg (ix3 b h w))

/-- The total focal term over every pixel. -/
def specFo (x : SP.Idx → EReal) (tg : ST.Idx → BitVec 32) : EReal :=
  ∑ b : Fin 8, ∑ h : Fin 512, ∑ w : Fin 512, colFocal (colOf x b h w) (tg (ix3 b h w))

/-! ## The closing arithmetic -/

/-- From the three (batch, class) arrays and the two totals to the loss: Dice and Jaccard ratios summed over the
    classes and the batch, divided by 8 and by 21 and taken from 1; the two totals divided by 2²¹; the four added
    with unit weights. The shape facts are arguments, so that each program passes its own. -/
def tail (hb : S0.BroadcastsInDim SBC (![] : Fin 0 → Fin SBC.rank)) (hr1 : SBC.ReducesTo [1] SB)
    (hr0 : SB.ReducesTo [0] S0) (h0 : 0 < S0.numel)
    (I P T : FVec Ideal SBC .f32) (ce fo : FVec Ideal S0 .f32) : FVec Ideal S0 .f32 :=
  let one : FVec Ideal S0 .f32 := constant S0 .f32 0x3F800000#32
  let zero : FVec Ideal S0 .f32 := constant S0 .f32 0x00000000#32
  let ones : FVec Ideal SBC .f32 := broadcastInDim SBC ![] hb one
  let twos : FVec Ideal SBC .f32 := broadcastInDim SBC ![] hb (constant S0 .f32 0x40000000#32)
  let eight : FVec Ideal S0 .f32 := constant S0 .f32 0x41000000#32
  let twentyOne : FVec Ideal S0 .f32 := constant S0 .f32 0x41A80000#32
  let pixels : FVec Ideal S0 .f32 := constant S0 .f32 0x4A000000#32
  let dice : FVec Ideal SBC .f32 := Host.divf (addf (mulf twos I) ones) (addf (addf P T) ones)
  let diceLoss : FVec Ideal S0 .f32 :=
    subf one (Host.divf (Host.divf (Host.reduceAdd (Host.reduceAdd dice zero hr1 h0) zero hr0 h0) eight) twentyOne)
  let jac : FVec Ideal SBC .f32 := Host.divf (addf I ones) (addf (subf (addf P T) I) ones)
  let jacLoss : FVec Ideal S0 .f32 :=
    subf one (Host.divf (Host.divf (Host.reduceAdd (Host.reduceAdd jac zero hr1 h0) zero hr0 h0) eight) twentyOne)
  addf (addf (addf (mulf one (Host.divf ce pixels)) (mulf one diceLoss)) (mulf one jacLoss)) (mulf one (Host.divf fo pixels))

end Cert.Combo

end
-- ==== Proof.KTile.lean ====
/-
  One grid point's work, read at an index. The body's payloads over a block of scores `v3` ([8, 21, 8, 512]: batch,
  class, 8 rows, 512 columns) and the matching block of label words `v4` ([8, 8, 512]) are, at the ideal values, the
  column functions of Spec.lean summed over the block's 8 × 512 pixels.
-/
import proofs.«412657_j78769700208763_2_alg».proof.Proof.Gen.KernelIdeal.Skeleton
import proofs.«412657_j78769700208763_2_alg».proof.Proof.Spec
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Combo

/-- The column of scores at pixel (b, hh, w) of a block. -/
def bcol (v3 : Vec Ideal S8x21x8x512 .f32) (b : Fin 8) (hh : Fin 8) (w : Fin 512) : Fin 21 → EReal :=
  fun k => v3 (ix4 b k hh w)

/-- The label word at pixel (b, hh, w) of a block. -/
def blab (v4 : Vec Ideal S8x8x512 .i32) (b : Fin 8) (hh : Fin 8) (w : Fin 512) : BitVec 32 := v4 (ix3 b hh w)

variable (v3 : Vec Ideal S8x21x8x512 .f32) (v4 : Vec Ideal S8x8x512 .i32)

/-! ## Words, layout operations and one-axis reductions read at an index -/

/-- The accumulator word of the maximum is −∞, and the word 0x3F800000 is 1. -/
private theorem negInf : Ideal.ofBits .f32 0xFF800000#32 = ⊥ := by
  simp [Ideal.ofBits, Ideal.ieee]
private theorem oneWord : Ideal.ofBits .f32 0x3F800000#32 = 1 := by
  simp [Ideal.ofBits, Ideal.ieee]
  rw [← EReal.coe_mul, ← EReal.coe_one]
  congr 1
  norm_num

/-- A pixel-shaped vector given a unit class axis and broadcast along it reads, at (b, c, hh, w), its value at the
    pixel (b, hh, w). -/
private theorem keep_apply {α : Type} (x : S8x8x512.Idx → α) (b : Fin 8) (c : Fin 21) (hh : Fin 8) (w : Fin 512) :
    broadcastTo S8x21x8x512 (shapeCast S8x1x8x512 x shapeCasts_S8x8x512_S8x1x8x512) broadcasts_S8x1x8x512_S8x21x8x512
      (ix4 b c hh w) = x (ix3 b hh w) := by
  refine (broadcastTo_apply _ _ (ix4 b c hh w) (ix4 b 0 hh w) (fun a => ?_)).trans ?_
  · match a with
    | ⟨0, _⟩ => rfl
    | ⟨1, _⟩ => rfl
    | ⟨2, _⟩ => rfl
    | ⟨3, _⟩ => rfl
  · refine shapeCast_apply _ _ _ _ ?_
    rw [Shape.rowMajor_val_three, Shape.rowMajor_val_four]
    show ((b.val * 8 + hh.val) * 512 + w.val) = (((b.val * 1 + 0) * 8 + hh.val) * 512 + w.val)
    omega

/-- The class axis put back into a pixel's index. -/
private theorem lift_class (b : Fin 8) (hh : Fin 8) (w : Fin 512) (k : Fin 21) :
    reduces_S8x21x8x512_S8x8x512.lift (ix3 b hh w) k = ix4 b k hh w := by
  funext a
  apply Fin.ext
  match a with
  | ⟨0, _⟩ => rfl
  | ⟨1, _⟩ => rfl
  | ⟨2, _⟩ => rfl
  | ⟨3, _⟩ => rfl

/-- The maximum over the class axis at a pixel is the column's maximum. -/
private theorem max_apply (hφ : FTy.f32 = FTy.f32 ∨ FTy.f32 = FTy.bf16) (hacc : (0xFF800000#32 : BitVec 32) = 0xFF800000#32)
    (b : Fin 8) (hh : Fin 8) (w : Fin 512) :
    multiReduction (F := Ideal) .maximumf [1] S8x8x512 v3 0xFF800000#32 reduces_S8x21x8x512_S8x8x512 hφ hacc (ix3 b hh w)
      = colMax (bcol v3 b hh w) := by
  refine (Ideal.multiReduction_maximumf_single v3 _ _ _ _ _).trans ?_
  have e : (v3 ∘ reduces_S8x21x8x512_S8x8x512.lift (ix3 b hh w)) = bcol v3 b hh w :=
    funext fun k => congrArg v3 (lift_class b hh w k)
  rw [e]
  show Finset.fold max (Ideal.ofBits .f32 0xFF800000#32) (bcol v3 b hh w) Finset.univ = _
  rw [negInf]
  rfl

/-- The sum over the class axis at a pixel. -/
private theorem sumClass_apply (x : FVec Ideal S8x21x8x512 .f32) (hφ : FTy.f32 = FTy.f32 ∨ FTy.f32 = FTy.bf16)
    (hacc : (0x00000000#32 : BitVec 32) = 0x00000000#32) (b : Fin 8) (hh : Fin 8) (w : Fin 512) :
    multiReduction (F := Ideal) .add [1] S8x8x512 x 0x00000000#32 reduces_S8x21x8x512_S8x8x512 hφ hacc (ix3 b hh w)
      = ∑ k : Fin 21, x (ix4 b k hh w) := by
  refine (Ideal.multiReduction_add_single x _ _ _ _ _).trans ?_
  exact Finset.sum_congr rfl fun k _ => congrArg x (lift_class b hh w k)

/-- The logarithm taken between the keepdims cast and the broadcast. -/
private theorem keepLog_apply (x : FVec Ideal S8x8x512 .f32) (b : Fin 8) (c : Fin 21) (hh : Fin 8) (w : Fin 512) :
    broadcastTo S8x21x8x512 (log (shapeCast S8x1x8x512 x shapeCasts_S8x8x512_S8x1x8x512))
      broadcasts_S8x1x8x512_S8x21x8x512 (ix4 b c hh w) = Ideal.log (x (ix3 b hh w)) :=
  keep_apply (fun i => Ideal.log (x i)) b c hh w

/-- The exponential of a vector read at an index. -/
private theorem exp_apply {s : Shape} (x : FVec Ideal s .f32) (i : s.Idx) : exp x i = Ideal.exp (x i) := rfl

/-- The block's log-softmax at a pixel and class. -/
private theorem pay7_apply (b : Fin 8) (c : Fin 21) (hh : Fin 8) (w : Fin 512) :
    k0_pay7 (F := Ideal) v3 (ix4 b c hh w) = colLogp (bcol v3 b hh w) c := by
  unfold k0_pay7
  simp only [subf_apply, exp_apply, keep_apply, keepLog_apply, max_apply v3 (.inl rfl) rfl,
    sumClass_apply _ (.inl rfl) rfl]
  rfl

/-- The block's softmax at a pixel and class. -/
private theorem pay8_apply (b : Fin 8) (c : Fin 21) (hh : Fin 8) (w : Fin 512) :
    k0_pay8 (F := Ideal) v3 (ix4 b c hh w) = colProb (bcol v3 b hh w) c := by
  unfold k0_pay8
  rw [exp_apply, pay7_apply]
  rfl

/-- An integer comparison of vectors read at an index. -/
private theorem cmpi_apply {s : Shape} {n : Nat} (p : CmpIPredicate) (x y : IVec s n) (i : s.Idx) :
    cmpi p x y i = IntOp.cmpi p (x i) (y i) := rfl

/-- The class numbers broadcast over the block read the class coordinate. -/
private theorem classIota_apply (b : Fin 8) (c : Fin 21) (hh : Fin 8) (w : Fin 512) :
    broadcastTo S8x21x8x512 (iota .tc S1x21x1x1 32 [1] iota_S1x21x1x1_d1_w32) broadcasts_S1x21x1x1_S8x21x8x512
      (ix4 b c hh w) = BitVec.ofNat 32 c.val := by
  refine (broadcastTo_apply _ _ (ix4 b c hh w) (ix4 0 c 0 0) (fun a => ?_)).trans ?_
  · match a with
    | ⟨0, _⟩ => rfl
    | ⟨1, _⟩ => rfl
    | ⟨2, _⟩ => rfl
    | ⟨3, _⟩ => rfl
  · exact iota_single_apply _ _ _ _ _ _

/-- The widened comparison bit, converted to a float, is the one-hot entry. -/
private theorem hotWord (lab : BitVec 32) (c : Fin 21) :
    FloatOps.sitofp (F := Ideal) .f32 (BitVec.setWidth 32 (IntOp.cmpi .eq lab (BitVec.ofNat 32 c.val))) = hot lab c := by
  show (((BitVec.setWidth 32 (BitVec.ofBool (lab == BitVec.ofNat 32 c.val))).toInt : ℝ) : EReal)
    = if lab = BitVec.ofNat 32 c.val then 1 else 0
  by_cases h : lab = BitVec.ofNat 32 c.val
  · have hb : (lab == BitVec.ofNat 32 c.val) = true := by simpa using h
    have e : (BitVec.setWidth 32 (BitVec.ofBool true)).toInt = 1 := by decide
    rw [if_pos h, hb, e]
    simp
  · have hb : (lab == BitVec.ofNat 32 c.val) = false := by simpa using h
    have e : (BitVec.setWidth 32 (BitVec.ofBool false)).toInt = 0 := by decide
    rw [if_neg h, hb, e]
    simp

/-- The block's one-hot at a pixel and class. -/
private theorem pay9_apply (b : Fin 8) (c : Fin 21) (hh : Fin 8) (w : Fin 512) :
    k0_pay9 (F := Ideal) v4 (ix4 b c hh w) = hot (blab v4 b hh w) c := by
  unfold k0_pay9
  simp only [sitofp_apply, extui_apply, cmpi_apply, keep_apply]
  rw [classIota_apply]
  exact hotWord _ c

/-- The column axis put back into a (batch, class, row) index, and the row axis into a (batch, class) index. -/
private theorem lift_colAxis (b : Fin 8) (c : Fin 21) (hh : Fin 8) (w : Fin 512) :
    reduces_S8x21x8x512_S8x21x8.lift (ix3 b c hh) w = ix4 b c hh w := by
  funext a
  apply Fin.ext
  match a with
  | ⟨0, _⟩ => rfl
  | ⟨1, _⟩ => rfl
  | ⟨2, _⟩ => rfl
  | ⟨3, _⟩ => rfl
private theorem lift_rowAxis (b : Fin 8) (c : Fin 21) (hh : Fin 8) :
    reduces_S8x21x8_S8x21.lift (ix2 b c) hh = ix3 b c hh := by
  funext a
  apply Fin.ext
  match a with
  | ⟨0, _⟩ => rfl
  | ⟨1, _⟩ => rfl
  | ⟨2, _⟩ => rfl

/-- The sum over the 512 columns, then over the 8 rows, of a block-shaped vector. -/
private theorem sumCols_apply (x : FVec Ideal S8x21x8x512 .f32) (hφ : FTy.f32 = FTy.f32 ∨ FTy.f32 = FTy.bf16)
    (hacc : (0x00000000#32 : BitVec 32) = 0x00000000#32) (b : Fin 8) (c : Fin 21) (hh : Fin 8) :
    multiReduction (F := Ideal) .add [3] S8x21x8 x 0x00000000#32 reduces_S8x21x8x512_S8x21x8 hφ hacc (ix3 b c hh)
      = ∑ w : Fin 512, x (ix4 b c hh w) := by
  refine (Ideal.multiReduction_add_single x _ _ _ _ _).trans ?_
  exact Finset.sum_congr rfl fun w _ => congrArg x (lift_colAxis b c hh w)
private theorem sumRows_apply (x : FVec Ideal S8x21x8 .f32) (hφ : FTy.f32 = FTy.f32 ∨ FTy.f32 = FTy.bf16)
    (hacc : (0x00000000#32 : BitVec 32) = 0x00000000#32) (b : Fin 8) (c : Fin 21) :
    multiReduction (F := Ideal) .add [2] S8x21 x 0x00000000#32 reduces_S8x21x8_S8x21 hφ hacc (ix2 b c)
      = ∑ hh : Fin 8, x (ix3 b c hh) := by
  refine (Ideal.multiReduction_add_single x _ _ _ _ _).trans ?_
  exact Finset.sum_congr rfl fun hh _ => congrArg x (lift_rowAxis b c hh)

/-- The zero and one words of the scalar unit. -/
private theorem scalarZero : Scalar.ofBits (F := Ideal) .f32 0x00000000#32 = 0 := Ideal.ofBits_zero_f32
private theorem scalarOne : Scalar.ofBits (F := Ideal) .f32 0x3F800000#32 = 1 := oneWord

/-- The block's cross entropy at a pixel. -/
private theorem pay13_apply (b : Fin 8) (hh : Fin 8) (w : Fin 512) :
    k0_pay13 (F := Ideal) v3 v4 (ix3 b hh w) = colCe (bcol v3 b hh w) (blab v4 b hh w) := by
  unfold k0_pay13
  simp only [subf_apply, broadcast_apply, sumClass_apply _ (.inl rfl) rfl, mulf_apply, pay7_apply, pay9_apply, scalarZero]
  rfl

/-- The exponential of minus the cross entropy at a pixel. -/
private theorem pay14_apply (b : Fin 8) (hh : Fin 8) (w : Fin 512) :
    k0_pay14 (F := Ideal) v3 v4 (ix3 b hh w) = Ideal.exp (0 - colCe (bcol v3 b hh w) (blab v4 b hh w)) := by
  unfold k0_pay14
  simp only [exp_apply, subf_apply, broadcast_apply, pay13_apply, scalarZero]

/-- The one index of a [1, 1] vector. -/
private theorem idx11 (j : S1x1.Idx) : j = ix2 (0 : Fin 1) (0 : Fin 1) := by
  funext a
  match a with
  | ⟨0, _⟩ => exact Subsingleton.elim (α := Fin 1) _ _
  | ⟨1, _⟩ => exact Subsingleton.elim (α := Fin 1) _ _

/-- The column axis put back into a (batch, row) index. -/
private theorem lift_pixCol (b : Fin 8) (hh : Fin 8) (w : Fin 512) :
    reduces_S8x8x512_S8x8.lift (ix2 b hh) w = ix3 b hh w := by
  funext a
  apply Fin.ext
  match a with
  | ⟨0, _⟩ => rfl
  | ⟨1, _⟩ => rfl
  | ⟨2, _⟩ => rfl

/-- Columns, then rows, then batch, with a unit axis appended after each sum: the total over the block's pixels. -/
private theorem total_apply (x : FVec Ideal S8x8x512 .f32) (j : S1x1.Idx) :
    shapeCast S1x1 (shapeCast S1x1x1
      (multiReduction (F := Ideal) .add [0] S1x1
        (shapeCast S8x1x1
          (multiReduction (F := Ideal) .add [1] S8x1
            (shapeCast S8x8x1
              (multiReduction (F := Ideal) .add [2] S8x8 x 0x00000000#32 reduces_S8x8x512_S8x8 (.inl rfl) rfl)
              shapeCasts_S8x8_S8x8x1)
            0x00000000#32 reduces_S8x8x1_S8x1 (.inl rfl) rfl)
          shapeCasts_S8x1_S8x1x1)
        0x00000000#32 reduces_S8x1x1_S1x1 (.inl rfl) rfl)
      shapeCasts_S1x1_S1x1x1) shapeCasts_S1x1x1_S1x1 j
      = ∑ b : Fin 8, ∑ hh : Fin 8, ∑ w : Fin 512, x (ix3 b hh w) := by
  rw [shapeCast_shapeCast, idx11 j]
  refine (Ideal.multiReduction_add_single _ _ _ _ _ _).trans ?_
  refine Finset.sum_congr rfl fun (b : Fin 8) _ => ?_
  refine (shapeCast_apply _ _ _ (ix2 b (0 : Fin 1)) ?_).trans ?_
  · rw [Shape.rowMajor_val_two, Shape.rowMajor_val_three]
    show b.val * 1 + 0 = (b.val * 1 + 0) * 1 + 0
    omega
  refine (Ideal.multiReduction_add_single _ _ _ _ _ _).trans ?_
  refine Finset.sum_congr rfl fun (hh : Fin 8) _ => ?_
  refine (shapeCast_apply _ _ _ (ix2 b hh) ?_).trans ?_
  · rw [Shape.rowMajor_val_two, Shape.rowMajor_val_three]
    show b.val * 8 + hh.val = (b.val * 8 + hh.val) * 1 + 0
    omega
  refine (Ideal.multiReduction_add_single _ _ _ _ _ _).trans ?_
  exact Finset.sum_congr rfl fun (w : Fin 512) _ => congrArg x (lift_pixCol b hh w)

/-- The focal term at a pixel. -/
private theorem focal_apply (b : Fin 8) (hh : Fin 8) (w : Fin 512) :
    mulf (mulf (broadcast S8x8x512 (Scalar.ofBits (F := Ideal) .f32 0x3F800000#32))
        (mulf (subf (broadcast S8x8x512 (Scalar.ofBits (F := Ideal) .f32 0x3F800000#32)) (k0_pay14 (F := Ideal) v3 v4))
          (subf (broadcast S8x8x512 (Scalar.ofBits (F := Ideal) .f32 0x3F800000#32)) (k0_pay14 (F := Ideal) v3 v4))))
      (k0_pay13 (F := Ideal) v3 v4) (ix3 b hh w) = colFocal (bcol v3 b hh w) (blab v4 b hh w) := by
  simp only [mulf_apply, subf_apply, broadcast_apply, pay13_apply, pay14_apply, scalarOne]
  rfl

/-! ## The block's payloads -/

/-- The block's contribution to the prob · hot sums. -/
theorem pay10_apply (b : Fin 8) (c : Fin 21) :
    k0_pay10 (F := Ideal) v3 v4 (ix2 b c)
      = ∑ hh : Fin 8, ∑ w : Fin 512, colProb (bcol v3 b hh w) c * hot (blab v4 b hh w) c := by
  unfold k0_pay10
  simp only [sumRows_apply _ (.inl rfl) rfl, sumCols_apply _ (.inl rfl) rfl, mulf_apply, pay8_apply, pay9_apply]

/-- The block's contribution to the prob sums. -/
theorem pay11_apply (b : Fin 8) (c : Fin 21) :
    k0_pay11 (F := Ideal) v3 (ix2 b c) = ∑ hh : Fin 8, ∑ w : Fin 512, colProb (bcol v3 b hh w) c := by
  unfold k0_pay11
  simp only [sumRows_apply _ (.inl rfl) rfl, sumCols_apply _ (.inl rfl) rfl, pay8_apply]

/-- The block's contribution to the label counts. -/
theorem pay12_apply (b : Fin 8) (c : Fin 21) :
    k0_pay12 (F := Ideal) v4 (ix2 b c) = ∑ hh : Fin 8, ∑ w : Fin 512, hot (blab v4 b hh w) c := by
  unfold k0_pay12
  simp only [sumRows_apply _ (.inl rfl) rfl, sumCols_apply _ (.inl rfl) rfl, pay9_apply]

/-- The running cross-entropy total after the block: what was there plus the block's pixels' cross entropies. -/
theorem pay19_apply (v67 : Vec Ideal S1x1 .f32) (j : S1x1.Idx) :
    k0_pay19 (F := Ideal) (k0_pay13 (F := Ideal) v3 v4) v67 j
      = v67 j + ∑ b : Fin 8, ∑ hh : Fin 8, ∑ w : Fin 512, colCe (bcol v3 b hh w) (blab v4 b hh w) := by
  unfold k0_pay19
  rw [addf_apply, shapeCast_self, total_apply]
  simp only [pay13_apply]

/-- The running focal total after the block. -/
theorem pay1_apply (v72 : Vec Ideal S1x1 .f32) (j : S1x1.Idx) :
    k0_pay1 (F := Ideal) (k0_pay15 (F := Ideal) (k0_pay13 (F := Ideal) v3 v4) (k0_pay14 (F := Ideal) v3 v4)
        (Scalar.ofBits .f32 0x3F800000#32)) v72 j
      = v72 j + ∑ b : Fin 8, ∑ hh : Fin 8, ∑ w : Fin 512, colFocal (bcol v3 b hh w) (blab v4 b hh w) := by
  unfold k0_pay1 k0_pay15
  rw [addf_apply, shapeCast_self, total_apply]
  simp only [focal_apply]

/-- The three (batch, class) accumulators add the block's contribution to what they held. -/
theorem pay16_apply (v25 : FVec Ideal S8x21 .f32) (v55 : Vec Ideal S8x21 .f32) (j : S8x21.Idx) :
    k0_pay16 (F := Ideal) v25 v55 j = v55 j + v25 j := by
  unfold k0_pay16
  rw [shapeCast_self]
  rfl
theorem pay17_apply (v27 : FVec Ideal S8x21 .f32) (v59 : Vec Ideal S8x21 .f32) (j : S8x21.Idx) :
    k0_pay17 (F := Ideal) v27 v59 j = v59 j + v27 j := by
  unfold k0_pay17
  rw [shapeCast_self]
  rfl
theorem pay18_apply (v29 : FVec Ideal S8x21 .f32) (v63 : Vec Ideal S8x21 .f32) (j : S8x21.Idx) :
    k0_pay18 (F := Ideal) v29 v63 j = v63 j + v29 j := by
  unfold k0_pay18
  rw [shapeCast_self]
  rfl

/-- The reset values are zero. -/
theorem pay2_apply (j : S8x21.Idx) : k0_pay2 (F := Ideal) j = 0 := by
  exact Ideal.ofBits_zero_f32
theorem pay3_apply (j : S8x21.Idx) : k0_pay3 (F := Ideal) j = 0 := by
  exact Ideal.ofBits_zero_f32
theorem pay4_apply (j : S8x21.Idx) : k0_pay4 (F := Ideal) j = 0 := by
  exact Ideal.ofBits_zero_f32
theorem pay5_apply (j : S1x1.Idx) : k0_pay5 (F := Ideal) j = 0 := by
  exact Ideal.ofBits_zero_f32
theorem pay6_apply (j : S1x1.Idx) : k0_pay6 (F := Ideal) j = 0 := by
  exact Ideal.ofBits_zero_f32

end Cert.KernelIdeal.Tile

end
-- ==== Proof.KInv.lean ====
/-
  The accumulators point by point. At grid point t the kernel's five outputs hold, after the body, the sums over the
  points 0 … t of the blocks' contributions: the first point resets them to zero and adds its own, every later point
  adds its own to what the point before left.
-/
import proofs.«412657_j78769700208763_2_alg».proof.Proof.Gen.KernelIdeal.Frame
import proofs.«412657_j78769700208763_2_alg».proof.Proof.KTile
import proofs.«412657_j78769700208763_2_alg».proof.Proof.Spec
import Idealize.ShloMosaic.Lib.Tactic

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Tile Cert.Combo

/-! ## What one point leaves, as the body's arithmetic over what it read

  At a later point every output's one store covers its block, and its loads read the whole buffers: the output ends
  holding the update's arithmetic applied to the two input blocks and to what the output held before. At the first
  point the reset store comes first and the update store, which covers it, loads what the reset wrote: the output ends
  holding the update's arithmetic applied to the input blocks and to the reset value. -/

section pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point leaves in the prob · hot accumulator the update of what it held. -/
theorem pieceB2 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S8x21x8x512 .f32) (x1 : Vec F S8x8x512 .i32) (xo2 : Vec F S8x21 .f32) (xo3 : Vec F S8x21 .f32) (xo4 : Vec F S8x21 .f32) (xo5 : Vec F S1x1 .f32) (xo6 : Vec F S1x1 .f32) :
    out0_B_2 c i arg1 harg1 arg2 harg2 arg3 harg3 arg4 harg4 arg5 harg5 arg6 harg6 arg7 harg7 hc0 x0 x1 xo2 xo3 xo4 xo5 xo6 = k0_pay16 (k0_pay10 x0 x1) xo2 := by
  unfold out0_B_2
  rw [View.read_writes_eq_canon _ _ _ (cover0_B_2 c i arg1 harg1 arg2 harg2 arg3 harg3 arg4 harg4 arg5 harg5 arg6 harg6 arg7 harg7 hc0 x0 x1 xo2 xo3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S8x21) hz2, View.ld_unit_zero (S := S1x1) hz2, View.ld_unit_zero (S := S8x21x8x512) hz4, View.ld_unit_zero (S := S8x8x512) hz3]

/-- A later point leaves in the prob accumulator the update of what it held. -/
theorem pieceB3 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S8x21x8x512 .f32) (x1 : Vec F S8x8x512 .i32) (xo2 : Vec F S8x21 .f32) (xo3 : Vec F S8x21 .f32) (xo4 : Vec F S8x21 .f32) (xo5 : Vec F S1x1 .f32) (xo6 : Vec F S1x1 .f32) :
    out0_B_3 c i arg1 harg1 arg2 harg2 arg3 harg3 arg4 harg4 arg5 harg5 arg6 harg6 arg7 harg7 hc0 x0 x1 xo2 xo3 xo4 xo5 xo6 = k0_pay17 (k0_pay11 x0) xo3 := by
  unfold out0_B_3
  rw [View.read_writes_eq_canon _ _ _ (cover0_B_3 c i arg1 harg1 arg2 harg2 arg3 harg3 arg4 harg4 arg5 harg5 arg6 harg6 arg7 harg7 hc0 x0 x1 xo2 xo3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S8x21) hz2, View.ld_unit_zero (S := S1x1) hz2, View.ld_unit_zero (S := S8x21x8x512) hz4, View.ld_unit_zero (S := S8x8x512) hz3]

/-- A later point leaves in the label-count accumulator the update of what it held. -/
theorem pieceB4 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S8x21x8x512 .f32) (x1 : Vec F S8x8x512 .i32) (xo2 : Vec F S8x21 .f32) (xo3 : Vec F S8x21 .f32) (xo4 : Vec F S8x21 .f32) (xo5 : Vec F S1x1 .f32) (xo6 : Vec F S1x1 .f32) :
    out0_B_4 c i arg1 harg1 arg2 harg2 arg3 harg3 arg4 harg4 arg5 harg5 arg6 harg6 arg7 harg7 hc0 x0 x1 xo2 xo3 xo4 xo5 xo6 = k0_pay18 (k0_pay12 x1) xo4 := by
  unfold out0_B_4
  rw [View.read_writes_eq_canon _ _ _ (cover0_B_4 c i arg1 harg1 arg2 harg2 arg3 harg3 arg4 harg4 arg5 harg5 arg6 harg6 arg7 harg7 hc0 x0 x1 xo2 xo3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S8x21) hz2, View.ld_unit_zero (S := S1x1) hz2, View.ld_unit_zero (S := S8x21x8x512) hz4, View.ld_unit_zero (S := S8x8x512) hz3]

/-- A later point leaves in the cross-entropy total the update of what it held. -/
theorem pieceB5 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S8x21x8x512 .f32) (x1 : Vec F S8x8x512 .i32) (xo2 : Vec F S8x21 .f32) (xo3 : Vec F S8x21 .f32) (xo4 : Vec F S8x21 .f32) (xo5 : Vec F S1x1 .f32) (xo6 : Vec F S1x1 .f32) :
    out0_B_5 c i arg1 harg1 arg2 harg2 arg3 harg3 arg4 harg4 arg5 harg5 arg6 harg6 arg7 harg7 hc0 x0 x1 xo2 xo3 xo4 xo5 xo6 = k0_pay19 (k0_pay13 x0 x1) xo5 := by
  unfold out0_B_5
  rw [View.read_writes_eq_canon _ _ _ (cover0_B_5 c i arg1 harg1 arg2 harg2 arg3 harg3 arg4 harg4 arg5 harg5 arg6 harg6 arg7 harg7 hc0 x0 x1 xo2 xo3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S8x21) hz2, View.ld_unit_zero (S := S1x1) hz2, View.ld_unit_zero (S := S8x21x8x512) hz4, View.ld_unit_zero (S := S8x8x512) hz3]

/-- A later point leaves in the focal total the update of what it held. -/
theorem pieceB6 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S8x21x8x512 .f32) (x1 : Vec F S8x8x512 .i32) (xo2 : Vec F S8x21 .f32) (xo3 : Vec F S8x21 .f32) (xo4 : Vec F S8x21 .f32) (xo5 : Vec F S1x1 .f32) (xo6 : Vec F S1x1 .f32) :
    out0_B_6 c i arg1 harg1 arg2 harg2 arg3 harg3 arg4 harg4 arg5 harg5 arg6 harg6 arg7 harg7 hc0 x0 x1 xo2 xo3 xo4 xo5 xo6 = k0_pay1 (k0_pay15 (k0_pay13 x0 x1) (k0_pay14 x0 x1) (Scalar.ofBits .f32 0x3F800000#32)) xo6 := by
  unfold out0_B_6
  rw [View.read_writes_eq_canon _ _ _ (cover0_B_6 c i arg1 harg1 arg2 harg2 arg3 harg3 arg4 harg4 arg5 harg5 arg6 harg6 arg7 harg7 hc0 x0 x1 xo2 xo3 xo4 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S8x21) hz2, View.ld_unit_zero (S := S1x1) hz2, View.ld_unit_zero (S := S8x21x8x512) hz4, View.ld_unit_zero (S := S8x8x512) hz3]

/-- The first point leaves in the prob · hot accumulator the update of the reset value. -/
theorem pieceA2 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S8x21x8x512 .f32) (x1 : Vec F S8x8x512 .i32) :
    out0_A_2 c i arg1 harg1 arg2 harg2 arg3 harg3 arg4 harg4 arg5 harg5 arg6 harg6 arg7 harg7 hc0 x0 x1 = k0_pay16 (k0_pay10 x0 x1) (k0_pay2 (F := F)) := by
  unfold out0_A_2
  rw [View.read_writes_eq_canon _ _ _ (cover0_A_2 c i arg1 harg1 arg2 harg2 arg3 harg3 arg4 harg4 arg5 harg5 arg6 harg6 arg7 harg7 hc0 x0 x1)]
  unfold kernelRun0_A
  dsimp only
  sl_unfold_words
  rw [View.canon_cons_unit_zero (S := S8x21) hz2, View.readCov_unit_zero (S := S8x21) _ hz2]
  simp only [View.readAt_eq_ld, harg1.read_unread, harg2.read_unread,
    View.ld_unit_zero (S := S8x21) hz2, View.ld_unit_zero (S := S1x1) hz2, View.ld_unit_zero (S := S8x21x8x512) hz4, View.ld_unit_zero (S := S8x8x512) hz3]

/-- The first point leaves in the prob accumulator the update of the reset value. -/
theorem pieceA3 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S8x21x8x512 .f32) (x1 : Vec F S8x8x512 .i32) :
    out0_A_3 c i arg1 harg1 arg2 harg2 arg3 harg3 arg4 harg4 arg5 harg5 arg6 harg6 arg7 harg7 hc0 x0 x1 = k0_pay17 (k0_pay11 x0) (k0_pay3 (F := F)) := by
  unfold out0_A_3
  rw [View.read_writes_eq_canon _ _ _ (cover0_A_3 c i arg1 harg1 arg2 harg2 arg3 harg3 arg4 harg4 arg5 harg5 arg6 harg6 arg7 harg7 hc0 x0 x1)]
  unfold kernelRun0_A
  dsimp only
  sl_unfold_words
  rw [View.canon_cons_unit_zero (S := S8x21) hz2, View.readCov_unit_zero (S := S8x21) _ hz2]
  simp only [View.readAt_eq_ld, harg1.read_unread, harg2.read_unread,
    View.ld_unit_zero (S := S8x21) hz2, View.ld_unit_zero (S := S1x1) hz2, View.ld_unit_zero (S := S8x21x8x512) hz4, View.ld_unit_zero (S := S8x8x512) hz3]

/-- The first point leaves in the label-count accumulator the update of the reset value. -/
theorem pieceA4 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S8x21x8x512 .f32) (x1 : Vec F S8x8x512 .i32) :
    out0_A_4 c i arg1 harg1 arg2 harg2 arg3 harg3 arg4 harg4 arg5 harg5 arg6 harg6 arg7 harg7 hc0 x0 x1 = k0_pay18 (k0_pay12 x1) (k0_pay4 (F := F)) := by
  unfold out0_A_4
  rw [View.read_writes_eq_canon _ _ _ (cover0_A_4 c i arg1 harg1 arg2 harg2 arg3 harg3 arg4 harg4 arg5 harg5 arg6 harg6 arg7 harg7 hc0 x0 x1)]
  unfold kernelRun0_A
  dsimp only
  sl_unfold_words
  rw [View.canon_cons_unit_zero (S := S8x21) hz2, View.readCov_unit_zero (S := S8x21) _ hz2]
  simp only [View.readAt_eq_ld, harg1.read_unread, harg2.read_unread,
    View.ld_unit_zero (S := S8x21) hz2, View.ld_unit_zero (S := S1x1) hz2, View.ld_unit_zero (S := S8x21x8x512) hz4, View.ld_unit_zero (S := S8x8x512) hz3]

/-- The first point leaves in the cross-entropy total the update of the reset value. -/
theorem pieceA5 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S8x21x8x512 .f32) (x1 : Vec F S8x8x512 .i32) :
    out0_A_5 c i arg1 harg1 arg2 harg2 arg3 harg3 arg4 harg4 arg5 harg5 arg6 harg6 arg7 harg7 hc0 x0 x1 = k0_pay19 (k0_pay13 x0 x1) (k0_pay5 (F := F)) := by
  unfold out0_A_5
  rw [View.read_writes_eq_canon _ _ _ (cover0_A_5 c i arg1 harg1 arg2 harg2 arg3 harg3 arg4 harg4 arg5 harg5 arg6 harg6 arg7 harg7 hc0 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread,
    View.ld_unit_zero (S := S8x21) hz2, View.ld_unit_zero (S := S1x1) hz2, View.ld_unit_zero (S := S8x21x8x512) hz4, View.ld_unit_zero (S := S8x8x512) hz3]

/-- The first point leaves in the focal total the update of the reset value. -/
theorem pieceA6 (c : Dev nD) (i : grid0.Coords) (arg1 : Memref sig .tc .vmem S8x21x8x512 .f32) (harg1 : arg1.IsWhole) (arg2 : Memref sig .tc .vmem S8x8x512 .i32) (harg2 : arg2.IsWhole) (arg3 : Memref sig .tc .vmem S8x21 .f32) (harg3 : arg3.IsWhole) (arg4 : Memref sig .tc .vmem S8x21 .f32) (harg4 : arg4.IsWhole) (arg5 : Memref sig .tc .vmem S8x21 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S8x21x8x512 .f32) (x1 : Vec F S8x8x512 .i32) :
    out0_A_6 c i arg1 harg1 arg2 harg2 arg3 harg3 arg4 harg4 arg5 harg5 arg6 harg6 arg7 harg7 hc0 x0 x1 = k0_pay1 (k0_pay15 (k0_pay13 x0 x1) (k0_pay14 x0 x1) (Scalar.ofBits .f32 0x3F800000#32)) (k0_pay6 (F := F)) := by
  unfold out0_A_6
  rw [View.read_writes_eq_canon _ _ _ (cover0_A_6 c i arg1 harg1 arg2 harg2 arg3 harg3 arg4 harg4 arg5 harg5 arg6 harg6 arg7 harg7 hc0 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread,
    View.ld_unit_zero (S := S8x21) hz2, View.ld_unit_zero (S := S1x1) hz2, View.ld_unit_zero (S := S8x21x8x512) hz4, View.ld_unit_zero (S := S8x8x512) hz3]

end pieces

variable (m : (ℓ : Loc nD τ sig) → Buf (Elt Ideal) ℓ)

/-- The block of scores and the block of label words grid point `t` works on. -/
abbrev xblk (c : Dev nD) (t : Fin cfg0.N) : Vec Ideal S8x21x8x512 .f32 := iblk m c 0 t
abbrev tblk (c : Dev nD) (t : Fin cfg0.N) : Vec Ideal S8x8x512 .i32 := iblk m c 1 t

/-- What grid point `t`'s block contributes to each accumulator. -/
def contribI (c : Dev nD) (t : Fin cfg0.N) : S8x21.Idx → EReal := fun j =>
  ∑ hh : Fin 8, ∑ w : Fin 512, colProb (bcol (xblk m c t) (j 0) hh w) (j 1) * hot (blab (tblk m c t) (j 0) hh w) (j 1)
def contribP (c : Dev nD) (t : Fin cfg0.N) : S8x21.Idx → EReal := fun j =>
  ∑ hh : Fin 8, ∑ w : Fin 512, colProb (bcol (xblk m c t) (j 0) hh w) (j 1)
def contribT (c : Dev nD) (t : Fin cfg0.N) : S8x21.Idx → EReal := fun j =>
  ∑ hh : Fin 8, ∑ w : Fin 512, hot (blab (tblk m c t) (j 0) hh w) (j 1)
def contribCe (c : Dev nD) (t : Fin cfg0.N) : EReal :=
  ∑ b : Fin 8, ∑ hh : Fin 8, ∑ w : Fin 512, colCe (bcol (xblk m c t) b hh w) (blab (tblk m c t) b hh w)
def contribFo (c : Dev nD) (t : Fin cfg0.N) : EReal :=
  ∑ b : Fin 8, ∑ hh : Fin 8, ∑ w : Fin 512, colFocal (bcol (xblk m c t) b hh w) (blab (tblk m c t) b hh w)

/-! ## One point's update, read at an index

  The update adds to what the accumulator held the block's contribution: for the three (batch, class) accumulators the
  sum over the block's 8 × 512 pixels at that batch and class, for the two totals the sum over all the block's pixels. -/

theorem updI (v3 : Vec Ideal S8x21x8x512 .f32) (v4 : Vec Ideal S8x8x512 .i32) (acc : Vec Ideal S8x21 .f32) (j : S8x21.Idx) :
    k0_pay16 (F := Ideal) (k0_pay10 (F := Ideal) v3 v4) acc j
      = acc j + ∑ hh : Fin 8, ∑ w : Fin 512, colProb (bcol v3 (j 0) hh w) (j 1) * hot (blab v4 (j 0) hh w) (j 1) :=
  (pay16_apply (k0_pay10 (F := Ideal) v3 v4) acc j).trans
    (congrArg (fun z => acc j + z)
      ((congrArg (k0_pay10 (F := Ideal) v3 v4) (eq_ix2 j)).trans (pay10_apply v3 v4 (j 0) (j 1))))

theorem updP (v3 : Vec Ideal S8x21x8x512 .f32) (acc : Vec Ideal S8x21 .f32) (j : S8x21.Idx) :
    k0_pay17 (F := Ideal) (k0_pay11 (F := Ideal) v3) acc j
      = acc j + ∑ hh : Fin 8, ∑ w : Fin 512, colProb (bcol v3 (j 0) hh w) (j 1) :=
  (pay17_apply (k0_pay11 (F := Ideal) v3) acc j).trans
    (congrArg (fun z => acc j + z)
      ((congrArg (k0_pay11 (F := Ideal) v3) (eq_ix2 j)).trans (pay11_apply v3 (j 0) (j 1))))

theorem updT (v4 : Vec Ideal S8x8x512 .i32) (acc : Vec Ideal S8x21 .f32) (j : S8x21.Idx) :
    k0_pay18 (F := Ideal) (k0_pay12 (F := Ideal) v4) acc j
      = acc j + ∑ hh : Fin 8, ∑ w : Fin 512, hot (blab v4 (j 0) hh w) (j 1) :=
  (pay18_apply (k0_pay12 (F := Ideal) v4) acc j).trans
    (congrArg (fun z => acc j + z)
      ((congrArg (k0_pay12 (F := Ideal) v4) (eq_ix2 j)).trans (pay12_apply v4 (j 0) (j 1))))

/-! ## The two kinds of point -/

/-- At the first point of a run of 64 the accumulators hold the update of the reset values. -/
theorem outs_first (c : Dev nD) (t : Fin cfg0.N) (h0 : t.val % 64 = 0) :
    outsAt0 m c t.val t.isLt
      = (k0_pay16 (F := Ideal) (k0_pay10 (F := Ideal) (xblk m c t) (tblk m c t)) (k0_pay2 (F := Ideal)),
         k0_pay17 (F := Ideal) (k0_pay11 (F := Ideal) (xblk m c t)) (k0_pay3 (F := Ideal)),
         k0_pay18 (F := Ideal) (k0_pay12 (F := Ideal) (tblk m c t)) (k0_pay4 (F := Ideal)),
         k0_pay19 (F := Ideal) (k0_pay13 (F := Ideal) (xblk m c t) (tblk m c t)) (k0_pay5 (F := Ideal)),
         k0_pay1 (F := Ideal) (k0_pay15 (F := Ideal) (k0_pay13 (F := Ideal) (xblk m c t) (tblk m c t)) (k0_pay14 (F := Ideal) (xblk m c t) (tblk m c t)) (Scalar.ofBits .f32 0x3F800000#32)) (k0_pay6 (F := Ideal))) := by
  rw [outsAt0_A m c t h0]
  rw [pieceA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (tblk m c t),
    pieceA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (tblk m c t),
    pieceA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (tblk m c t),
    pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (tblk m c t),
    pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (tblk m c t)]

/-- At every other point the accumulators hold the update of what the point before left. -/
theorem outs_later (c : Dev nD) (t : Fin cfg0.N) (h0 : ¬t.val % 64 = 0)
    (p2 p3 p4 : Vec Ideal S8x21 .f32) (p5 p6 : Vec Ideal S1x1 .f32)
    (hp : outsAt0 m c (t.val - 1) (Nat.lt_of_le_of_lt (Nat.sub_le _ _) t.isLt) = (p2, p3, p4, p5, p6)) :
    outsAt0 m c t.val t.isLt
      = (k0_pay16 (F := Ideal) (k0_pay10 (F := Ideal) (xblk m c t) (tblk m c t)) p2,
         k0_pay17 (F := Ideal) (k0_pay11 (F := Ideal) (xblk m c t)) p3,
         k0_pay18 (F := Ideal) (k0_pay12 (F := Ideal) (tblk m c t)) p4,
         k0_pay19 (F := Ideal) (k0_pay13 (F := Ideal) (xblk m c t) (tblk m c t)) p5,
         k0_pay1 (F := Ideal) (k0_pay15 (F := Ideal) (k0_pay13 (F := Ideal) (xblk m c t) (tblk m c t)) (k0_pay14 (F := Ideal) (xblk m c t) (tblk m c t)) (Scalar.ofBits .f32 0x3F800000#32)) p6) := by
  rw [outsAt0_B m c t h0, hp]
  dsimp only
  rw [pieceB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (tblk m c t) p2 p3 p4 p5 p6,
    pieceB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (tblk m c t) p2 p3 p4 p5 p6,
    pieceB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (tblk m c t) p2 p3 p4 p5 p6,
    pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (tblk m c t) p2 p3 p4 p5 p6,
    pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (tblk m c t) p2 p3 p4 p5 p6]

/-- After the body at point `n` each accumulator holds the sum of the contributions of the points 0 … n. -/
theorem outs_inv (c : Dev nD) (n : ℕ) (hn : n < cfg0.N) :
    outsAt0 m c n hn
      = ((fun j => ∑ s : Fin (n + 1), contribI m c ⟨s.val, lt_of_lt_of_le s.isLt hn⟩ j : Vec Ideal S8x21 .f32),
         (fun j => ∑ s : Fin (n + 1), contribP m c ⟨s.val, lt_of_lt_of_le s.isLt hn⟩ j : Vec Ideal S8x21 .f32),
         (fun j => ∑ s : Fin (n + 1), contribT m c ⟨s.val, lt_of_lt_of_le s.isLt hn⟩ j : Vec Ideal S8x21 .f32),
         (fun _ => ∑ s : Fin (n + 1), contribCe m c ⟨s.val, lt_of_lt_of_le s.isLt hn⟩ : Vec Ideal S1x1 .f32),
         (fun _ => ∑ s : Fin (n + 1), contribFo m c ⟨s.val, lt_of_lt_of_le s.isLt hn⟩ : Vec Ideal S1x1 .f32)) := by
  have hN : cfg0.N = 64 := N_0
  induction n with
  | zero =>
    refine (outs_first m c ⟨0, hn⟩ (Nat.zero_mod 64)).trans ?_
    refine congrArg₂ Prod.mk ?_ (congrArg₂ Prod.mk ?_ (congrArg₂ Prod.mk ?_ (congrArg₂ Prod.mk ?_ ?_)))
    · funext j
      conv_rhs => rw [Fin.sum_univ_castSucc, Fin.sum_univ_zero]
      rw [updI, pay2_apply]
      rfl
    · funext j
      conv_rhs => rw [Fin.sum_univ_castSucc, Fin.sum_univ_zero]
      rw [updP, pay3_apply]
      rfl
    · funext j
      conv_rhs => rw [Fin.sum_univ_castSucc, Fin.sum_univ_zero]
      rw [updT, pay4_apply]
      rfl
    · funext j
      conv_rhs => rw [Fin.sum_univ_castSucc, Fin.sum_univ_zero]
      rw [pay19_apply, pay5_apply]
      rfl
    · funext j
      conv_rhs => rw [Fin.sum_univ_castSucc, Fin.sum_univ_zero]
      rw [pay1_apply, pay6_apply]
      rfl
  | succ n ih =>
    have hB : ¬(⟨n + 1, hn⟩ : Fin cfg0.N).val % 64 = 0 := by dsimp only; omega
    refine (outs_later m c ⟨n + 1, hn⟩ hB _ _ _ _ _ (ih (Nat.lt_of_succ_lt hn))).trans ?_
    refine congrArg₂ Prod.mk ?_ (congrArg₂ Prod.mk ?_ (congrArg₂ Prod.mk ?_ (congrArg₂ Prod.mk ?_ ?_)))
    · funext j
      conv_rhs => rw [Fin.sum_univ_castSucc]
      rw [updI]
      rfl
    · funext j
      conv_rhs => rw [Fin.sum_univ_castSucc]
      rw [updP]
      rfl
    · funext j
      conv_rhs => rw [Fin.sum_univ_castSucc]
      rw [updT]
      rfl
    · funext j
      conv_rhs => rw [Fin.sum_univ_castSucc]
      rw [pay19_apply]
      rfl
    · funext j
      conv_rhs => rw [Fin.sum_univ_castSucc]
      rw [pay1_apply]
      rfl

end Cert.KernelIdeal.Inv

end
-- ==== Proof.KAcc.lean ====
/-
  What the five accumulators hold when the grid has run. Each of the 64 grid points adds its block's contribution
  (KTile.lean) to what the point before left, the first point starting from zero, so after point n an accumulator
  holds the sum of the contributions of the points 0 … n; the blocks are the 64 row bands of 8 rows, so after the last
  point it holds the sum over all 512 rows: Spec.lean's `specI`, `specP`, `specT`, `specCe`, `specFo`.
-/
import proofs.«412657_j78769700208763_2_alg».proof.Proof.Gen.KernelIdeal.Frame
import proofs.«412657_j78769700208763_2_alg».proof.Proof.KTile
import proofs.«412657_j78769700208763_2_alg».proof.Proof.KInv
import proofs.«412657_j78769700208763_2_alg».proof.Proof.Spec
import Idealize.ShloMosaic.Lib.Pipeline.Value
import Mathlib.Data.Fintype.BigOperators
import Mathlib.Algebra.BigOperators.Group.Finset.Sigma
import Mathlib.Logic.Equiv.Fin.Basic

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Tile Cert.KernelIdeal.Inv Cert.Combo

variable (m : (ℓ : Loc nD τ sig) → Buf (Elt Ideal) ℓ)

/-! ## The arrays after the run are what the last point left -/

/-- The last grid point, the only one after which the accumulators are written back. -/
abbrev tlast : Fin cfg0.N := ⟨63, by decide⟩

/-- A point whose position is 63 modulo 64 is the last one. -/
theorem eq_tlast (t : Fin cfg0.N) (h : t.val % 64 = 63) : t = tlast := by
  have hN : cfg0.N = 64 := N_0
  have := t.isLt
  exact Fin.ext (by show t.val = 63; omega)

/-- The block of the prob · hot sums at the last point is the whole [8, 21] array: read through it, any
    contents are themselves. -/
theorem cut_I (X : Vec Ideal S8x21 .f32) :
    (cfg0.win 2).cut (grid0.coords tlast) X = ((cfg0.win 2).blk tlast).view.read (Elt Ideal) X := by
  have hz : (fun a => win0_2.index tlast a * main_v0_0.ty.shape.size a) = fun _ => 0 :=
    funext fun a => by fin_cases a <;> decide
  exact (Memref.read_access_unit_zero (Elt Ideal) main_v0_0 hz (fun a => by rw [congrFun hz a]; simp) X).symm

/-- The last point's block covers the whole [8, 21] array. -/
theorem cover_I (i : S8x21.Idx) : i ∈ ((cfg0.win 2).blk tlast).view.set := by
  show i ∈ ((View.whole main_v0_0).slice (win0_2.rect tlast)).set
  rw [View.set_slice_whole, Rect.mem_set_unit]
  intro a
  have h0 : (i 0 : Nat) < 8 := (i 0).isLt
  have h1 : (i 1 : Nat) < 21 := (i 1).isLt
  match a with
  | ⟨0, _⟩ =>
    show win0_2.index tlast 0 * win0_2.size 0 ≤ (i 0 : Nat)
      ∧ (i 0 : Nat) < win0_2.index tlast 0 * win0_2.size 0 + win0_2.xsize (grid0.coords tlast) 0
    rw [show win0_2.index tlast 0 * win0_2.size 0 = 0 from by decide +kernel,
      show win0_2.xsize (grid0.coords tlast) 0 = 8 from by decide +kernel]
    omega
  | ⟨1, _⟩ =>
    show win0_2.index tlast 1 * win0_2.size 1 ≤ (i 1 : Nat)
      ∧ (i 1 : Nat) < win0_2.index tlast 1 * win0_2.size 1 + win0_2.xsize (grid0.coords tlast) 1
    rw [show win0_2.index tlast 1 * win0_2.size 1 = 0 from by decide +kernel,
      show win0_2.xsize (grid0.coords tlast) 1 = 21 from by decide +kernel]
    omega

/-- So the array of the prob · hot sums ends holding what the last point left: the write-back after the last
    point is the only one, and its block is the array. -/
theorem arr_I (c : Dev nD) :
    ((dats m 0 c).arrAt 2 cfg0.N : Buf (Elt Ideal) ((c.tc : Thread nD τ).loc main_v0_0))
      = (outsAt0 m c tlast.val tlast.isLt).1 :=
  (dats m 0 c).arrAt_eq_of_cover 2 (outsAt0 m c tlast.val tlast.isLt).1
    (fun t hf => by
      show (cfg0.win 2).cut (grid0.coords t) ((dats m 0 c).after 2 t) = _
      rw [after0_2]
      obtain rfl : t = tlast := eq_tlast t ((flush0_2 t).mp hf)
      exact cut_I _)
    (fun i => ⟨tlast, (flush0_2 tlast).mpr rfl, cover_I i⟩)

/-- The block of the prob sums at the last point is the whole [8, 21] array: read through it, any
    contents are themselves. -/
theorem cut_P (X : Vec Ideal S8x21 .f32) :
    (cfg0.win 3).cut (grid0.coords tlast) X = ((cfg0.win 3).blk tlast).view.read (Elt Ideal) X := by
  have hz : (fun a => win0_3.index tlast a * main_v0_1.ty.shape.size a) = fun _ => 0 :=
    funext fun a => by fin_cases a <;> decide
  exact (Memref.read_access_unit_zero (Elt Ideal) main_v0_1 hz (fun a => by rw [congrFun hz a]; simp) X).symm

/-- The last point's block covers the whole [8, 21] array. -/
theorem cover_P (i : S8x21.Idx) : i ∈ ((cfg0.win 3).blk tlast).view.set := by
  show i ∈ ((View.whole main_v0_1).slice (win0_3.rect tlast)).set
  rw [View.set_slice_whole, Rect.mem_set_unit]
  intro a
  have h0 : (i 0 : Nat) < 8 := (i 0).isLt
  have h1 : (i 1 : Nat) < 21 := (i 1).isLt
  match a with
  | ⟨0, _⟩ =>
    show win0_3.index tlast 0 * win0_3.size 0 ≤ (i 0 : Nat)
      ∧ (i 0 : Nat) < win0_3.index tlast 0 * win0_3.size 0 + win0_3.xsize (grid0.coords tlast) 0
    rw [show win0_3.index tlast 0 * win0_3.size 0 = 0 from by decide +kernel,
      show win0_3.xsize (grid0.coords tlast) 0 = 8 from by decide +kernel]
    omega
  | ⟨1, _⟩ =>
    show win0_3.index tlast 1 * win0_3.size 1 ≤ (i 1 : Nat)
      ∧ (i 1 : Nat) < win0_3.index tlast 1 * win0_3.size 1 + win0_3.xsize (grid0.coords tlast) 1
    rw [show win0_3.index tlast 1 * win0_3.size 1 = 0 from by decide +kernel,
      show win0_3.xsize (grid0.coords tlast) 1 = 21 from by decide +kernel]
    omega

/-- So the array of the prob sums ends holding what the last point left: the write-back after the last
    point is the only one, and its block is the array. -/
theorem arr_P (c : Dev nD) :
    ((dats m 0 c).arrAt 3 cfg0.N : Buf (Elt Ideal) ((c.tc : Thread nD τ).loc main_v0_1))
      = (outsAt0 m c tlast.val tlast.isLt).2.1 :=
  (dats m 0 c).arrAt_eq_of_cover 3 (outsAt0 m c tlast.val tlast.isLt).2.1
    (fun t hf => by
      show (cfg0.win 3).cut (grid0.coords t) ((dats m 0 c).after 3 t) = _
      rw [after0_3]
      obtain rfl : t = tlast := eq_tlast t ((flush0_3 t).mp hf)
      exact cut_P _)
    (fun i => ⟨tlast, (flush0_3 tlast).mpr rfl, cover_P i⟩)

/-- The block of the label counts at the last point is the whole [8, 21] array: read through it, any
    contents are themselves. -/
theorem cut_T (X : Vec Ideal S8x21 .f32) :
    (cfg0.win 4).cut (grid0.coords tlast) X = ((cfg0.win 4).blk tlast).view.read (Elt Ideal) X := by
  have hz : (fun a => win0_4.index tlast a * main_v0_2.ty.shape.size a) = fun _ => 0 :=
    funext fun a => by fin_cases a <;> decide
  exact (Memref.read_access_unit_zero (Elt Ideal) main_v0_2 hz (fun a => by rw [congrFun hz a]; simp) X).symm

/-- The last point's block covers the whole [8, 21] array. -/
theorem cover_T (i : S8x21.Idx) : i ∈ ((cfg0.win 4).blk tlast).view.set := by
  show i ∈ ((View.whole main_v0_2).slice (win0_4.rect tlast)).set
  rw [View.set_slice_whole, Rect.mem_set_unit]
  intro a
  have h0 : (i 0 : Nat) < 8 := (i 0).isLt
  have h1 : (i 1 : Nat) < 21 := (i 1).isLt
  match a with
  | ⟨0, _⟩ =>
    show win0_4.index tlast 0 * win0_4.size 0 ≤ (i 0 : Nat)
      ∧ (i 0 : Nat) < win0_4.index tlast 0 * win0_4.size 0 + win0_4.xsize (grid0.coords tlast) 0
    rw [show win0_4.index tlast 0 * win0_4.size 0 = 0 from by decide +kernel,
      show win0_4.xsize (grid0.coords tlast) 0 = 8 from by decide +kernel]
    omega
  | ⟨1, _⟩ =>
    show win0_4.index tlast 1 * win0_4.size 1 ≤ (i 1 : Nat)
      ∧ (i 1 : Nat) < win0_4.index tlast 1 * win0_4.size 1 + win0_4.xsize (grid0.coords tlast) 1
    rw [show win0_4.index tlast 1 * win0_4.size 1 = 0 from by decide +kernel,
      show win0_4.xsize (grid0.coords tlast) 1 = 21 from by decide +kernel]
    omega

/-- So the array of the label counts ends holding what the last point left: the write-back after the last
    point is the only one, and its block is the array. -/
theorem arr_T (c : Dev nD) :
    ((dats m 0 c).arrAt 4 cfg0.N : Buf (Elt Ideal) ((c.tc : Thread nD τ).loc main_v0_2))
      = (outsAt0 m c tlast.val tlast.isLt).2.2.1 :=
  (dats m 0 c).arrAt_eq_of_cover 4 (outsAt0 m c tlast.val tlast.isLt).2.2.1
    (fun t hf => by
      show (cfg0.win 4).cut (grid0.coords t) ((dats m 0 c).after 4 t) = _
      rw [after0_4]
      obtain rfl : t = tlast := eq_tlast t ((flush0_4 t).mp hf)
      exact cut_T _)
    (fun i => ⟨tlast, (flush0_4 tlast).mpr rfl, cover_T i⟩)

/-- The block of the cross-entropy total at the last point is the whole [1, 1] array: read through it, any
    contents are themselves. -/
theorem cut_Ce (X : Vec Ideal S1x1 .f32) :
    (cfg0.win 5).cut (grid0.coords tlast) X = ((cfg0.win 5).blk tlast).view.read (Elt Ideal) X := by
  have hz : (fun a => win0_5.index tlast a * main_v0_3.ty.shape.size a) = fun _ => 0 :=
    funext fun a => by fin_cases a <;> decide
  exact (Memref.read_access_unit_zero (Elt Ideal) main_v0_3 hz (fun a => by rw [congrFun hz a]; simp) X).symm

/-- The last point's block covers the whole [1, 1] array. -/
theorem cover_Ce (i : S1x1.Idx) : i ∈ ((cfg0.win 5).blk tlast).view.set := by
  show i ∈ ((View.whole main_v0_3).slice (win0_5.rect tlast)).set
  rw [View.set_slice_whole, Rect.mem_set_unit]
  intro a
  have h0 : (i 0 : Nat) < 1 := (i 0).isLt
  have h1 : (i 1 : Nat) < 1 := (i 1).isLt
  match a with
  | ⟨0, _⟩ =>
    show win0_5.index tlast 0 * win0_5.size 0 ≤ (i 0 : Nat)
      ∧ (i 0 : Nat) < win0_5.index tlast 0 * win0_5.size 0 + win0_5.xsize (grid0.coords tlast) 0
    rw [show win0_5.index tlast 0 * win0_5.size 0 = 0 from by decide +kernel,
      show win0_5.xsize (grid0.coords tlast) 0 = 1 from by decide +kernel]
    omega
  | ⟨1, _⟩ =>
    show win0_5.index tlast 1 * win0_5.size 1 ≤ (i 1 : Nat)
      ∧ (i 1 : Nat) < win0_5.index tlast 1 * win0_5.size 1 + win0_5.xsize (grid0.coords tlast) 1
    rw [show win0_5.index tlast 1 * win0_5.size 1 = 0 from by decide +kernel,
      show win0_5.xsize (grid0.coords tlast) 1 = 1 from by decide +kernel]
    omega

/-- So the array of the cross-entropy total ends holding what the last point left: the write-back after the last
    point is the only one, and its block is the array. -/
theorem arr_Ce (c : Dev nD) :
    ((dats m 0 c).arrAt 5 cfg0.N : Buf (Elt Ideal) ((c.tc : Thread nD τ).loc main_v0_3))
      = (outsAt0 m c tlast.val tlast.isLt).2.2.2.1 :=
  (dats m 0 c).arrAt_eq_of_cover 5 (outsAt0 m c tlast.val tlast.isLt).2.2.2.1
    (fun t hf => by
      show (cfg0.win 5).cut (grid0.coords t) ((dats m 0 c).after 5 t) = _
      rw [after0_5]
      obtain rfl : t = tlast := eq_tlast t ((flush0_5 t).mp hf)
      exact cut_Ce _)
    (fun i => ⟨tlast, (flush0_5 tlast).mpr rfl, cover_Ce i⟩)

/-- The block of the focal total at the last point is the whole [1, 1] array: read through it, any
    contents are themselves. -/
theorem cut_Fo (X : Vec Ideal S1x1 .f32) :
    (cfg0.win 6).cut (grid0.coords tlast) X = ((cfg0.win 6).blk tlast).view.read (Elt Ideal) X := by
  have hz : (fun a => win0_6.index tlast a * main_v0_4.ty.shape.size a) = fun _ => 0 :=
    funext fun a => by fin_cases a <;> decide
  exact (Memref.read_access_unit_zero (Elt Ideal) main_v0_4 hz (fun a => by rw [congrFun hz a]; simp) X).symm

/-- The last point's block covers the whole [1, 1] array. -/
theorem cover_Fo (i : S1x1.Idx) : i ∈ ((cfg0.win 6).blk tlast).view.set := by
  show i ∈ ((View.whole main_v0_4).slice (win0_6.rect tlast)).set
  rw [View.set_slice_whole, Rect.mem_set_unit]
  intro a
  have h0 : (i 0 : Nat) < 1 := (i 0).isLt
  have h1 : (i 1 : Nat) < 1 := (i 1).isLt
  match a with
  | ⟨0, _⟩ =>
    show win0_6.index tlast 0 * win0_6.size 0 ≤ (i 0 : Nat)
      ∧ (i 0 : Nat) < win0_6.index tlast 0 * win0_6.size 0 + win0_6.xsize (grid0.coords tlast) 0
    rw [show win0_6.index tlast 0 * win0_6.size 0 = 0 from by decide +kernel,
      show win0_6.xsize (grid0.coords tlast) 0 = 1 from by decide +kernel]
    omega
  | ⟨1, _⟩ =>
    show win0_6.index tlast 1 * win0_6.size 1 ≤ (i 1 : Nat)
      ∧ (i 1 : Nat) < win0_6.index tlast 1 * win0_6.size 1 + win0_6.xsize (grid0.coords tlast) 1
    rw [show win0_6.index tlast 1 * win0_6.size 1 = 0 from by decide +kernel,
      show win0_6.xsize (grid0.coords tlast) 1 = 1 from by decide +kernel]
    omega

/-- So the array of the focal total ends holding what the last point left: the write-back after the last
    point is the only one, and its block is the array. -/
theorem arr_Fo (c : Dev nD) :
    ((dats m 0 c).arrAt 6 cfg0.N : Buf (Elt Ideal) ((c.tc : Thread nD τ).loc main_v0_4))
      = (outsAt0 m c tlast.val tlast.isLt).2.2.2.2 :=
  (dats m 0 c).arrAt_eq_of_cover 6 (outsAt0 m c tlast.val tlast.isLt).2.2.2.2
    (fun t hf => by
      show (cfg0.win 6).cut (grid0.coords t) ((dats m 0 c).after 6 t) = _
      rw [after0_6]
      obtain rfl : t = tlast := eq_tlast t ((flush0_6 t).mp hf)
      exact cut_Fo _)
    (fun i => ⟨tlast, (flush0_6 tlast).mpr rfl, cover_Fo i⟩)

/-! ## The blocks are the row bands of the argument arrays -/

/-- Row `hh` of band `t` among the 512 rows. -/
abbrev row (t : Fin cfg0.N) (hh : Fin 8) : Fin 512 :=
  ⟨8 * t.val + hh.val, by have := t.isLt; have hN : cfg0.N = 64 := N_0; omega⟩

/-- The two argument arrays over their literal index types. -/
abbrev xarr (c : Dev nD) : SP.Idx → EReal := m ((c.tc : Thread nD τ).loc main_arg0)
abbrev tgarr (c : Dev nD) : ST.Idx → BitVec 32 := m ((c.tc : Thread nD τ).loc main_arg1)

/-- The index maps over the grid: the block of scores moves along the row axis only, one block a point, -/
theorem idx_x : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)
/-- and so does the block of label words. -/
theorem idx_t : ∀ t : Fin cfg0.N, win0_1.index t (0 : Fin 3) = 0 ∧ win0_1.index t (1 : Fin 3) = t.val
    ∧ win0_1.index t (2 : Fin 3) = 0 :=
  (by decide +kernel : ∀ t : Fin grid0.N, _)

/-- The block of scores at point `t` is the band of rows 8t … 8t + 7 of the scores: a block's coordinate is its
    index times its size plus the coordinate inside it. -/
theorem xblk_apply (c : Dev nD) (t : Fin cfg0.N) (b : Fin 8) (k : Fin 21) (hh : Fin 8) (w : Fin 512) :
    xblk m c t (ix4 b k hh w) = xarr m c (ix4 b k (row t hh) w) := by
  obtain ⟨e0, e1, e2, e3⟩ := idx_x t
  show iblk m c 0 t (ix4 b k hh w) = _
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 4) * 8 + 1 * b.val = b.val; omega
  | ⟨1, _⟩ => show win0_0.index t (1 : Fin 4) * 21 + 1 * k.val = k.val; omega
  | ⟨2, _⟩ => show win0_0.index t (2 : Fin 4) * 8 + 1 * hh.val = 8 * t.val + hh.val; omega
  | ⟨3, _⟩ => show win0_0.index t (3 : Fin 4) * 512 + 1 * w.val = w.val; omega

/-- The block of label words at point `t` is the band of rows 8t … 8t + 7 of the labels. -/
theorem tblk_apply (c : Dev nD) (t : Fin cfg0.N) (b : Fin 8) (hh : Fin 8) (w : Fin 512) :
    tblk m c t (ix3 b hh w) = tgarr m c (ix3 b (row t hh) w) := by
  obtain ⟨e0, e1, e2⟩ := idx_t t
  show iblk m c 1 t (ix3 b hh w) = _
  unfold iblk
  rw [View.read_apply]
  show V m c main_arg1 _ = m ((c.tc : Thread nD τ).loc main_arg1) _
  rw [V_main_arg1]
  congr 1
  funext a
  apply Fin.ext
  match a with
  | ⟨0, _⟩ => show win0_1.index t (0 : Fin 3) * 8 + 1 * b.val = b.val; omega
  | ⟨1, _⟩ => show win0_1.index t (1 : Fin 3) * 8 + 1 * hh.val = 8 * t.val + hh.val; omega
  | ⟨2, _⟩ => show win0_1.index t (2 : Fin 3) * 512 + 1 * w.val = w.val; omega

/-! ## The 64 bands of 8 rows are the 512 rows -/

/-- A sum over the 64 bands of the sums over a band's 8 rows is the sum over the 512 rows, in any commutative
    monoid: (s, hh) ↦ 8s + hh is a bijection of 64 × 8 with 512. -/
theorem sum_bands {M : Type*} [AddCommMonoid M] (g : Fin 512 → M) :
    ∑ s : Fin 64, ∑ hh : Fin 8, g ⟨8 * s.val + hh.val, by omega⟩ = ∑ h : Fin 512, g h := by
  rw [← Fintype.sum_prod_type']
  refine Fintype.sum_equiv (finProdFinEquiv (m := 64) (n := 8)) _ _ (fun x => ?_)
  congr 1
  apply Fin.ext
  simp only [finProdFinEquiv_apply_val]
  omega

/-! ## The contributions of the 64 points add up to the whole-array sums -/

/-- A pixel's column of scores in the block at point `t` is the column at row 8t + hh of the scores, -/
theorem bcol_eq (c : Dev nD) (t : Fin cfg0.N) (b : Fin 8) (hh : Fin 8) (w : Fin 512) :
    bcol (xblk m c t) b hh w = colOf (xarr m c) b (row t hh) w :=
  funext fun k => xblk_apply m c t b k hh w

/-- and its label word the word at row 8t + hh of the labels. -/
theorem blab_eq (c : Dev nD) (t : Fin cfg0.N) (b : Fin 8) (hh : Fin 8) (w : Fin 512) :
    blab (tblk m c t) b hh w = tgarr m c (ix3 b (row t hh) w) :=
  tblk_apply m c t b hh w

/-- The 64 points' contributions to the prob · hot sums add up to the sums over all 512 rows. -/
theorem sum_contribI (c : Dev nD) (hs : ∀ s : Fin 64, s.val < cfg0.N) (j : S8x21.Idx) :
    ∑ s : Fin 64, contribI m c ⟨s.val, hs s⟩ j = specI (xarr m c) (tgarr m c) j := by
  obtain ⟨b, k, rfl⟩ : ∃ (b : Fin 8) (k : Fin 21), j = ix2 b k := ⟨j 0, j 1, eq_ix2 j⟩
  show ∑ s : Fin 64, ∑ hh : Fin 8, ∑ w : Fin 512,
        colProb (bcol (xblk m c ⟨s.val, hs s⟩) b hh w) k * hot (blab (tblk m c ⟨s.val, hs s⟩) b hh w) k
      = ∑ h : Fin 512, ∑ w : Fin 512, colProb (colOf (xarr m c) b h w) k * hot (tgarr m c (ix3 b h w)) k
  simp only [bcol_eq, blab_eq]
  exact sum_bands (fun h => ∑ w : Fin 512, colProb (colOf (xarr m c) b h w) k * hot (tgarr m c (ix3 b h w)) k)

/-- The same for the prob sums, -/
theorem sum_contribP (c : Dev nD) (hs : ∀ s : Fin 64, s.val < cfg0.N) (j : S8x21.Idx) :
    ∑ s : Fin 64, contribP m c ⟨s.val, hs s⟩ j = specP (xarr m c) j := by
  obtain ⟨b, k, rfl⟩ : ∃ (b : Fin 8) (k : Fin 21), j = ix2 b k := ⟨j 0, j 1, eq_ix2 j⟩
  show ∑ s : Fin 64, ∑ hh : Fin 8, ∑ w : Fin 512, colProb (bcol (xblk m c ⟨s.val, hs s⟩) b hh w) k
      = ∑ h : Fin 512, ∑ w : Fin 512, colProb (colOf (xarr m c) b h w) k
  simp only [bcol_eq]
  exact sum_bands (fun h => ∑ w : Fin 512, colProb (colOf (xarr m c) b h w) k)

/-- for the label counts, -/
theorem sum_contribT (c : Dev nD) (hs : ∀ s : Fin 64, s.val < cfg0.N) (j : S8x21.Idx) :
    ∑ s : Fin 64, contribT m c ⟨s.val, hs s⟩ j = specT (tgarr m c) j := by
  obtain ⟨b, k, rfl⟩ : ∃ (b : Fin 8) (k : Fin 21), j = ix2 b k := ⟨j 0, j 1, eq_ix2 j⟩
  show ∑ s : Fin 64, ∑ hh : Fin 8, ∑ w : Fin 512, hot (blab (tblk m c ⟨s.val, hs s⟩) b hh w) k
      = ∑ h : Fin 512, ∑ w : Fin 512, hot (tgarr m c (ix3 b h w)) k
  simp only [blab_eq]
  exact sum_bands (fun h => ∑ w : Fin 512, hot (tgarr m c (ix3 b h w)) k)

/-- for the cross-entropy total (the kernel sums bands, then batches, then a band's rows; the specification batches,
    then rows), -/
theorem sum_contribCe (c : Dev nD) (hs : ∀ s : Fin 64, s.val < cfg0.N) :
    ∑ s : Fin 64, contribCe m c ⟨s.val, hs s⟩ = specCe (xarr m c) (tgarr m c) := by
  unfold contribCe specCe
  simp only [bcol_eq, blab_eq]
  rw [Finset.sum_comm]
  exact Finset.sum_congr rfl fun b _ =>
    sum_bands (fun h => ∑ w : Fin 512, colCe (colOf (xarr m c) b h w) (tgarr m c (ix3 b h w)))

/-- and for the focal total. -/
theorem sum_contribFo (c : Dev nD) (hs : ∀ s : Fin 64, s.val < cfg0.N) :
    ∑ s : Fin 64, contribFo m c ⟨s.val, hs s⟩ = specFo (xarr m c) (tgarr m c) := by
  unfold contribFo specFo
  simp only [bcol_eq, blab_eq]
  rw [Finset.sum_comm]
  exact Finset.sum_congr rfl fun b _ =>
    sum_bands (fun h => ∑ w : Fin 512, colFocal (colOf (xarr m c) b h w) (tgarr m c (ix3 b h w)))

/-! ## The five arrays after the run -/

/-- The prob · hot sums: output window 2's array after the run. -/
theorem final_I (c : Dev nD) :
    ((dats m 0 c).arrAt 2 cfg0.N : Buf (Elt Ideal) ((c.tc : Thread nD τ).loc main_v0_0))
      = specI (m ((c.tc : Thread nD τ).loc main_arg0)) (m ((c.tc : Thread nD τ).loc main_arg1)) := by
  refine (arr_I m c).trans ?_
  rw [outs_inv m c tlast.val tlast.isLt]
  funext j
  exact sum_contribI m c (fun s => by have hN : cfg0.N = 64 := N_0; have := s.isLt; omega) j

/-- The prob sums: output window 3's array after the run. -/
theorem final_P (c : Dev nD) :
    ((dats m 0 c).arrAt 3 cfg0.N : Buf (Elt Ideal) ((c.tc : Thread nD τ).loc main_v0_1))
      = specP (m ((c.tc : Thread nD τ).loc main_arg0)) := by
  refine (arr_P m c).trans ?_
  rw [outs_inv m c tlast.val tlast.isLt]
  funext j
  exact sum_contribP m c (fun s => by have hN : cfg0.N = 64 := N_0; have := s.isLt; omega) j

/-- The label counts: output window 4's array after the run. -/
theorem final_T (c : Dev nD) :
    ((dats m 0 c).arrAt 4 cfg0.N : Buf (Elt Ideal) ((c.tc : Thread nD τ).loc main_v0_2))
      = specT (m ((c.tc : Thread nD τ).loc main_arg1)) := by
  refine (arr_T m c).trans ?_
  rw [outs_inv m c tlast.val tlast.isLt]
  funext j
  exact sum_contribT m c (fun s => by have hN : cfg0.N = 64 := N_0; have := s.isLt; omega) j

/-- The cross-entropy total: output window 5's one-element array after the run. -/
theorem final_Ce (c : Dev nD) :
    ((dats m 0 c).arrAt 5 cfg0.N : Buf (Elt Ideal) ((c.tc : Thread nD τ).loc main_v0_3))
      = fun _ => specCe (m ((c.tc : Thread nD τ).loc main_arg0)) (m ((c.tc : Thread nD τ).loc main_arg1)) := by
  refine (arr_Ce m c).trans ?_
  rw [outs_inv m c tlast.val tlast.isLt]
  funext _
  exact sum_contribCe m c (fun s => by have hN : cfg0.N = 64 := N_0; have := s.isLt; omega)

/-- The focal total: output window 6's one-element array after the run. -/
theorem final_Fo (c : Dev nD) :
    ((dats m 0 c).arrAt 6 cfg0.N : Buf (Elt Ideal) ((c.tc : Thread nD τ).loc main_v0_4))
      = fun _ => specFo (m ((c.tc : Thread nD τ).loc main_arg0)) (m ((c.tc : Thread nD τ).loc main_arg1)) := by
  refine (arr_Fo m c).trans ?_
  rw [outs_inv m c tlast.val tlast.isLt]
  funext _
  exact sum_contribFo m c (fun s => by have hN : cfg0.N = 64 := N_0; have := s.isLt; omega)

end Cert.KernelIdeal.Acc

end
-- ==== Proof.KRun.lean ====
/-
  The idealized kernel's run and its result. The region leaves the five accumulators at Spec.lean's sums (KAcc.lean);
  the host lines after it are the closing arithmetic `Combo.tail` of those five.
-/
import proofs.«412657_j78769700208763_2_alg».proof.Proof.KAcc
import Idealize.ShloMosaic.Lib.StableHlo.Run
import Idealize.ShloMosaic.Lib.Pipeline.FrameSuffix

noncomputable section

namespace Cert.KernelIdeal.KRun

open Idealize.ShloMosaic Idealize.ShloMosaic.TcCoe Idealize.SL.Sem
open Cert.KernelIdeal Cert.KernelIdeal.Gen Cert.Combo

/-- The loss as the kernel computes it, from the argument arrays. -/
def result (x : FVec Ideal S8x21x512x512 .f32) (tg : IVec S8x512x512 32) : FVec Ideal S_ .f32 :=
  tail Facts₀.bcast_S_S8x21 Facts₀.reducesTo_S8x21_S8_d1 Facts₀.reducesTo_S8_S_d0 Facts₀.h_S_
    (specI x tg) (specP x) (specT tg) (fun _ => specCe x tg) (fun _ => specFo x tg)

/-- A buffer the region does not stage: unscoped, and no window's array. -/
private theorem mem_result : main_v36 ∈ Pipeline.restRefs sig cfg0.spec :=
  Pipeline.mem_restRefs_of main_v36 (by decide) (by decide)

/-- The host lines after the region, run from any contents of the buffers, leave in the result buffer the closing
    arithmetic of the five accumulator arrays' contents, the two one-element arrays read as rank-0 values. -/
private theorem after_tail (W : Valuation τ sig (Elt Ideal)) :
    StableHlo.after (hostOps1 (F := Ideal)) W (Proc.devRef .tc main_v36)
      = tail Facts₀.bcast_S_S8x21 Facts₀.reducesTo_S8x21_S8_d1 Facts₀.reducesTo_S8_S_d0 Facts₀.h_S_
          (W (Proc.devRef .tc main_v0_0)) (W (Proc.devRef .tc main_v0_1)) (W (Proc.devRef .tc main_v0_2))
          (shapeCast S_ (W (Proc.devRef .tc main_v0_3)) shapeCasts_S1x1_S_)
          (shapeCast S_ (W (Proc.devRef .tc main_v0_4)) shapeCasts_S1x1_S_) := by
  after_results_simp
  rfl

/-- The same from contents that have the five accumulator arrays at the specification's sums: the result buffer ends
    at `result`. -/
private theorem after_tail_of (W : Valuation τ sig (Elt Ideal)) (x : FVec Ideal S8x21x512x512 .f32) (tg : IVec S8x512x512 32)
    (hI : W (Proc.devRef .tc main_v0_0) = specI x tg) (hP : W (Proc.devRef .tc main_v0_1) = specP x)
    (hT : W (Proc.devRef .tc main_v0_2) = specT tg) (hCe : W (Proc.devRef .tc main_v0_3) = fun _ => specCe x tg)
    (hFo : W (Proc.devRef .tc main_v0_4) = fun _ => specFo x tg) :
    StableHlo.after (hostOps1 (F := Ideal)) W (Proc.devRef .tc main_v36) = result x tg := by
  rw [after_tail, hI, hP, hT, hCe, hFo]
  rfl

/-- Every weakly fair execution of the idealized kernel terminates with the result buffer at `result` of the argument
    arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v36 mem_result).trans ?_
    have e : ([hostOps1] : List (List (HloOp τ sig (Elt Ideal)))).flatten = hostOps1 := by
      simp only [List.flatten_cons, List.flatten_nil, List.append_nil]
    unfold Pipeline.afterTail₀
    rw [e]
    exact after_tail_of _ _ _
      ((Pipeline.withArrays_arr spec0 launch0.win.arr_inj c _ _ 2).trans (Acc.final_I m c))
      ((Pipeline.withArrays_arr spec0 launch0.win.arr_inj c _ _ 3).trans (Acc.final_P m c))
      ((Pipeline.withArrays_arr spec0 launch0.win.arr_inj c _ _ 4).trans (Acc.final_T m c))
      ((Pipeline.withArrays_arr spec0 launch0.win.arr_inj c _ _ 5).trans (Acc.final_Ce m c))
      ((Pipeline.withArrays_arr spec0 launch0.win.arr_inj c _ _ 6).trans (Acc.final_Fo m c))
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KRun

end
-- ==== Proof.LibSumTwoAxes.lean ====
/-
  A sum over the LAST TWO axes of a rank-4 array, read at an index: at the ideal values the host's float
  `stablehlo.reduce … add` over the axes [2, 3] of an array of extents n0 × n1 × n2 × n3 is, at the result index (a, b),
  the initial value plus the double sum over the two dropped coordinates of the array at (a, b, p, q). The library reads
  a sum over ONE axis and a sum into a single element; this is the remaining case a per-(batch, class) sum over the
  pixels needs. Any four extents; any commutative monoid for the bare sum.
-/
import Idealize.ShloMosaic.PureOps.Ideal
import Idealize.ShloMosaic.PureOps.Ideal.Laws
import Idealize.ShloMosaic.Lib.ValueIdx

noncomputable section

namespace Cert.LibSumTwoAxes

open Idealize.ShloMosaic Idealize.ShloMosaic.ValueIdx

/-- Dropping the last two coordinates of (a, b, p, q) leaves (a, b). -/
theorem drop_ix4 {n0 n1 n2 n3 : Nat}
    (h : (⟨4, ![n0, n1, n2, n3]⟩ : Shape).ReducesTo [2, 3] ⟨2, ![n0, n1]⟩)
    (a : Fin n0) (b : Fin n1) (p : Fin n2) (q : Fin n3) :
    h.drop (ix4 a b p q) = ix2 a b := by
  funext d; match d with | ⟨0, _⟩ => rfl | ⟨1, _⟩ => rfl

/-- The indices of an n0 × n1 × n2 × n3 array whose first two coordinates are those of `j`, summed, are the last two
    coordinates, summed: the index sets correspond by i ↦ (i 2, i 3) and (p, q) ↦ (j 0, j 1, p, q). -/
theorem sum_filter_drop_two {M : Type*} [AddCommMonoid M] {n0 n1 n2 n3 : Nat}
    (h : (⟨4, ![n0, n1, n2, n3]⟩ : Shape).ReducesTo [2, 3] ⟨2, ![n0, n1]⟩)
    (x : (⟨4, ![n0, n1, n2, n3]⟩ : Shape).Idx → M) (j : (⟨2, ![n0, n1]⟩ : Shape).Idx) :
    ∑ i ∈ Finset.univ.filter (fun i => h.drop i = j), x i
      = ∑ p : Fin n2, ∑ q : Fin n3, x (ix4 (j 0) (j 1) p q) := by
  rw [← Fintype.sum_prod_type']
  refine Finset.sum_nbij' (fun i => (i 2, i 3)) (fun pq => ix4 (j 0) (j 1) pq.1 pq.2) ?_ ?_ ?_ ?_ ?_
  · intro i _; exact Finset.mem_univ _
  · intro pq _
    refine Finset.mem_filter.2 ⟨Finset.mem_univ _, ?_⟩
    funext d; match d with | ⟨0, _⟩ => rfl | ⟨1, _⟩ => rfl
  · intro i hi
    have hj := (Finset.mem_filter.1 hi).2
    subst hj
    funext d; match d with | ⟨0, _⟩ => rfl | ⟨1, _⟩ => rfl | ⟨2, _⟩ => rfl | ⟨3, _⟩ => rfl
  · intro pq _; rfl
  · intro i hi
    have hj := (Finset.mem_filter.1 hi).2
    subst hj
    exact congrArg x (funext fun d => by
      match d with | ⟨0, _⟩ => rfl | ⟨1, _⟩ => rfl | ⟨2, _⟩ => rfl | ⟨3, _⟩ => rfl)

/-- The host's float sum over the axes [2, 3], read at the ideal values at the result index `j`: the initial value plus
    the double sum over the dropped coordinates. -/
theorem hostReduceAdd_two {n0 n1 n2 n3 : Nat}
    (h : (⟨4, ![n0, n1, n2, n3]⟩ : Shape).ReducesTo [2, 3] ⟨2, ![n0, n1]⟩)
    (x : (⟨4, ![n0, n1, n2, n3]⟩ : Shape).Idx → EReal) (init : EReal) (j : (⟨2, ![n0, n1]⟩ : Shape).Idx) :
    Ideal.hostReduceAdd h x init j = init + ∑ p : Fin n2, ∑ q : Fin n3, x (ix4 (j 0) (j 1) p q) := by
  unfold Ideal.hostReduceAdd
  rw [sum_filter_drop_two h x j]

end Cert.LibSumTwoAxes

end
-- ==== Proof.RefSums.lean ====
/-
  The reference's stages read at an index against Spec.lean: its log-softmax, softmax and one-hot at an entry are the
  column functions of the pixel's column and label, and its three sums over the two pixel axes are `specI`, `specP`,
  `specT`.
-/
import proofs.«412657_j78769700208763_2_alg».proof.Proof.RefRead
import proofs.«412657_j78769700208763_2_alg».proof.Proof.Spec
import proofs.«412657_j78769700208763_2_alg».proof.Proof.LibSumTwoAxes

noncomputable section

namespace Cert.ReferenceIdeal.RefSums

open Idealize.ShloMosaic Idealize.ShloMosaic.ValueIdx Cert.ReferenceIdeal Cert.ReferenceIdeal.ReadP Cert.Combo

/-- The word 0xFF800000 denotes −∞, the least extended real. -/
private theorem ofBits_neg_inf : Ideal.ofBits .f32 0xFF800000#32 = ⊥ := by simp [Ideal.ofBits, Ideal.ieee]

/-- A one-bit "the words are equal", read as a number, is 1 where they are equal and 0 elsewhere. -/
private theorem hot_word (lab v : BitVec 32) :
    FloatOps.uitofp (F := Ideal) .f32 (IntOp.cmpi .eq lab v) = if lab = v then (1 : EReal) else 0 := by
  show (((IntOp.cmpi .eq lab v).toNat : ℝ) : EReal) = _
  by_cases h : lab = v
  · rw [if_pos h]; subst h; simp [IntOp.cmpi]
  · rw [if_neg h]; simp [IntOp.cmpi, h]

/-- A float sum from the zero word over the two pixel axes, at (batch, class) `j`: the double sum over the pixels. -/
private theorem sum_pixels (y : FVec Ideal S8x21x512x512 .f32) (j : S8x21.Idx) :
    Host.reduceAdd (F := Ideal) y (constant (F := Ideal) S_ .f32 0x00000000#32) Gen.reducesTo_S8x21x512x512_S8x21_d2_3 Gen.h_S_ j
      = ∑ p : Fin 512, ∑ q : Fin 512, y (ix4 (j 0) (j 1) p q) := by
  simp only [Host.reduceAdd, Ideal.hostReduceAdd_def]
  refine (Cert.LibSumTwoAxes.hostReduceAdd_two Gen.reducesTo_S8x21x512x512_S8x21_d2_3 y _ j).trans ?_
  show Ideal.ofBits .f32 0x00000000#32 + _ = _
  rw [Ideal.ofBits_zero_f32, zero_add]

variable (x0 : FVec Ideal S8x21x512x512 .f32) (x1 : IVec S8x512x512 32)

/-- The reference's column maximum at pixel (b, h, w): the fold of `max` from −∞ over the 21 classes. -/
private theorem ref_max (b : Fin 8) (h w : Fin 512) :
    val_main_call0_v0 (F := Ideal) x0 (ix3 b h w) = colMax (colOf x0 b h w) := by
  unfold val_main_call0_v0
  rw [Host.reduce_eq_fold_single FloatOps.maximumf x0 _ Gen.reducesTo_S8x21x512x512_S8x512x512_d1 (by decide) Gen.h_S_]
  unfold colMax
  show Finset.fold max (Ideal.ofBits .f32 0xFF800000#32) _ (Finset.univ : Finset (Fin 21)) = _
  rw [ofBits_neg_inf]
  refine congrArg (fun f => Finset.fold max ⊥ f Finset.univ) (funext fun k => ?_)
  exact congrArg x0 (funext fun a => Fin.ext (by
    match a with | ⟨0, _⟩ => rfl | ⟨1, _⟩ => rfl | ⟨2, _⟩ => rfl | ⟨3, _⟩ => rfl))

/-- The shifted score at (b, c, h, w): the score minus the column's maximum (the `max` with −∞ changes nothing). -/
private theorem ref_shift (b : Fin 8) (c : Fin 21) (h w : Fin 512) :
    val_main_call0_v5 (F := Ideal) x0 (ix4 b c h w) = colOf x0 b h w c - colMax (colOf x0 b h w) := by
  have e : idx_main_call0_v3 (idx_main_call0_v4 (ix4 b c h w)) = ix3 b h w :=
    funext fun a => Fin.ext (by match a with | ⟨0, _⟩ => rfl | ⟨1, _⟩ => rfl | ⟨2, _⟩ => rfl)
  rw [val_main_call0_v5_apply, val_main_call0_v4_apply, val_main_call0_v3_apply, val_main_call0_v2_apply,
    val_main_call0_v1_apply, val_main_call0_cst_0_apply, e, ref_max]
  simp only [Ideal.subf_def, Ideal.maximumf_def, Ideal.ofBits_def, ofBits_neg_inf, max_bot_left]
  rfl

/-- The sum of the exponentials of the shifted scores at pixel (b, h, w). -/
private theorem ref_sumexp (b : Fin 8) (h w : Fin 512) :
    val_main_call0_v7 (F := Ideal) x0 (ix3 b h w)
      = ∑ k : Fin 21, Ideal.exp (colOf x0 b h w k - colMax (colOf x0 b h w)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix3 b h w) k = ix4 b k h w :=
    funext fun a => Fin.ext (by match a with | ⟨0, _⟩ => rfl | ⟨1, _⟩ => rfl | ⟨2, _⟩ => rfl | ⟨3, _⟩ => rfl)
  rw [e, val_main_call0_v6_apply, ref_shift, Ideal.hostUnary_exp_def]

/-- The reference's log-softmax at (b, c, h, w). -/
theorem ref_logp (b : Fin 8) (c : Fin 21) (h w : Fin 512) :
    val_main_v0 (F := Ideal) x0 (ix4 b c h w) = colLogp (colOf x0 b h w) c := by
  have e : idx_main_call0_v8 (idx_main_call0_v10 (ix4 b c h w)) = ix3 b h w :=
    funext fun a => Fin.ext (by match a with | ⟨0, _⟩ => rfl | ⟨1, _⟩ => rfl | ⟨2, _⟩ => rfl)
  rw [val_main_v0_apply, val_main_call0_v10_apply, val_main_call0_v9_apply, val_main_call0_v8_apply, e,
    ref_sumexp, ref_shift]
  simp only [Ideal.subf_def, Ideal.hostUnary_log_def]
  rfl

/-- The reference's softmax at (b, c, h, w). -/
theorem ref_prob (b : Fin 8) (c : Fin 21) (h w : Fin 512) :
    val_main_v1 (F := Ideal) x0 (ix4 b c h w) = colProb (colOf x0 b h w) c := by
  rw [val_main_v1_apply, ref_logp, Ideal.hostUnary_exp_def]
  rfl

/-- The reference's one-hot at (b, c, h, w). -/
theorem ref_hot (b : Fin 8) (c : Fin 21) (h w : Fin 512) :
    val_main_v2 (F := Ideal) x1 (ix4 b c h w) = hot (x1 (ix3 b h w)) c := by
  have e : idx_main_call1_v0 (idx_main_call1_v2 (ix4 b c h w)) = ix3 b h w :=
    funext fun a => Fin.ext (by match a with | ⟨0, _⟩ => rfl | ⟨1, _⟩ => rfl | ⟨2, _⟩ => rfl)
  rw [val_main_v2_apply, val_main_call1_v4_apply, val_main_call1_v2_apply, val_main_call1_v0_apply,
    val_main_call1_v3_apply, val_main_call1_v1_apply, e]
  exact hot_word _ _

/-- The reference's sum of prob · hot over the pixels. -/
theorem ref_I : val_main_v4 (F := Ideal) x0 x1 = specI x0 x1 := by
  funext j
  unfold val_main_v4 val_main_cst
  refine (sum_pixels _ j).trans ?_
  unfold specI
  refine Finset.sum_congr rfl fun p _ => Finset.sum_congr rfl fun q _ => ?_
  rw [val_main_v3_apply, ref_prob x0 (j 0) (j 1) p q, ref_hot x1 (j 0) (j 1) p q]
  rfl

/-- The reference's sum of prob over the pixels. -/
theorem ref_P : val_main_v5 (F := Ideal) x0 = specP x0 := by
  funext j
  unfold val_main_v5 val_main_cst_0
  refine (sum_pixels _ j).trans ?_
  unfold specP
  exact Finset.sum_congr rfl fun p _ => Finset.sum_congr rfl fun q _ => ref_prob x0 (j 0) (j 1) p q

/-- The reference's label counts. -/
theorem ref_T : val_main_v6 (F := Ideal) x1 = specT x1 := by
  funext j
  unfold val_main_v6 val_main_cst_1
  refine (sum_pixels _ j).trans ?_
  unfold specT
  exact Finset.sum_congr rfl fun p _ => Finset.sum_congr rfl fun q _ => ref_hot x1 (j 0) (j 1) p q

end Cert.ReferenceIdeal.RefSums

end
-- ==== Proof.ColMath.lean ====
/-
  Facts about one pixel's column functions (Spec.lean): a column of reals has a real log-softmax; the one-hot weighted
  sum of the log-probabilities picks the labelled class; and a real number's power 2 is its square.
-/
import proofs.«412657_j78769700208763_2_alg».proof.Proof.Spec

noncomputable section

namespace Cert.Combo

open Idealize.ShloMosaic

/-! ## The two float constants of the focal term, as the reals their patterns denote -/

namespace ColMath

/-- The pattern of `1.0` denotes `1`. -/
theorem ofBits_one_f32 : Ideal.ofBits .f32 0x3F800000#32 = 1 := by
  simp [Ideal.ofBits, Ideal.ieee, -EReal.coe_mul]; norm_num

/-- The pattern of `2.0` denotes the real `2`. -/
theorem ofBits_two_f32 : Ideal.ofBits .f32 0x40000000#32 = ((2 : ℝ) : EReal) := by
  simp [Ideal.ofBits, Ideal.ieee, -EReal.coe_mul]; norm_num

/-- The larger of two reals, embedded, is the larger of the two embedded. -/
theorem coe_max_real (a b : ℝ) : max (a : EReal) (b : EReal) = ((max a b : ℝ) : EReal) :=
  (EReal.coe_strictMono.monotone.map_max).symm

/-- A finite sum of embedded reals is the embedded sum. -/
theorem coe_sum_real {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The fold of `max` from `⊥` over a nonempty set of embedded reals is an embedded real. -/
theorem fold_max_real {ι : Type*} (f : ι → ℝ) (s : Finset ι) (hs : s.Nonempty) :
    ∃ m : ℝ, s.fold max ⊥ (fun k => ((f k : ℝ) : EReal)) = (m : EReal) := by
  induction hs using Finset.Nonempty.cons_induction with
  | singleton a => exact ⟨f a, by rw [Finset.fold_singleton]; exact max_bot_right _⟩
  | cons a s ha _ ih =>
    obtain ⟨m, hm⟩ := ih
    exact ⟨max (f a) m, by rw [Finset.fold_cons, hm]; exact coe_max_real _ _⟩

/-- Two class words are equal exactly when the classes are. -/
theorem ofNat_class_inj (k c : Fin 21) : BitVec.ofNat 32 k.val = BitVec.ofNat 32 c.val ↔ k = c := by
  constructor
  · intro h
    have h' := congrArg BitVec.toNat h
    simp only [BitVec.toNat_ofNat] at h'
    have hk := k.isLt
    have hc := c.isLt
    exact Fin.ext (by omega)
  · rintro rfl; rfl

end ColMath

open ColMath

/-- A column of real scores has a real log-softmax. -/
theorem colLogp_real {col : Fin 21 → EReal} (hcol : ∀ k, ∃ r : ℝ, col k = (r : EReal)) (c : Fin 21) :
    ∃ r : ℝ, colLogp col c = (r : EReal) := by
  choose f hf using hcol
  obtain rfl : col = fun k => ((f k : ℝ) : EReal) := funext hf
  obtain ⟨m, hm⟩ := fold_max_real f Finset.univ Finset.univ_nonempty
  have hpos : 0 < ∑ k : Fin 21, Real.exp (f k - m) :=
    Finset.sum_pos (fun k _ => Real.exp_pos _) Finset.univ_nonempty
  refine ⟨(f c - m) - Real.log (∑ k : Fin 21, Real.exp (f k - m)), ?_⟩
  unfold colLogp colMax
  rw [hm]
  simp only [← EReal.coe_sub, Ideal.exp_coe]
  rw [coe_sum_real, Ideal.log_coe, if_neg (not_le.mpr hpos), ← EReal.coe_sub]

/-- For a label in range, minus the one-hot weighted sum of the log-probabilities is minus the labelled class's. -/
theorem colCe_label (col : Fin 21 → EReal) (k : Fin 21) :
    colCe col (BitVec.ofNat 32 k.val) = -(colLogp col k) := by
  unfold colCe
  rw [Finset.sum_eq_single k, zero_sub]
  · unfold hot; rw [if_pos rfl, mul_one]
  · intro c _ hck
    unfold hot
    rw [if_neg (fun h => hck ((ofNat_class_inj k c).mp h).symm), mul_zero]
  · intro h; exact absurd (Finset.mem_univ k) h

/-- The power 2 of a real number, as the host's `power` computes it at the ideal values, is its square. -/
theorem pow_two_real (d : ℝ) : Ideal.pow (d : EReal) (Ideal.ofBits .f32 0x40000000#32) = (d : EReal) * (d : EReal) := by
  rw [ofBits_two_f32, Ideal.pow_coe_coe, ← EReal.coe_mul]
  congr 1
  show d ^ (2 : ℝ) = d * d
  rw [Real.rpow_two, sq]

end Cert.Combo

end
-- ==== Proof.LibSumIdx3.lean ====
/-
  A sum over a rank-3 index set as the triple sum over its coordinates: the rank-3 analogue of the library's
  `idxEquiv2` / `sum_idx2` (Lib/ValueIdx.lean). General: nothing here names a program.
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3

end
-- ==== Proof.RefCe.lean ====
/-
  The reference's per-pixel cross entropy and focal term, and their totals, against Spec.lean. With every label in
  range the bounds test of the take-along-axis passes, the gather reads the log-softmax at the labelled class, and the
  one-hot weighted sum of the kernel's form picks that same entry; with every score finite the focal term's power 2 is
  a real number's square.
-/
import proofs.«412657_j78769700208763_2_alg».proof.Proof.RefSums
import proofs.«412657_j78769700208763_2_alg».proof.Proof.ColMath
import proofs.«412657_j78769700208763_2_alg».proof.Proof.LibSumIdx3
import Idealize.ShloMosaic.Lib.StableHlo.Predicate
import Idealize.ShloMosaic.PureOps.Reduce

noncomputable section

namespace Cert.ReferenceIdeal.RefCe

open Idealize.ShloMosaic Idealize.ShloMosaic.ValueIdx Cert.ReferenceIdeal Cert.ReferenceIdeal.ReadP Cert.Combo
open Idealize.ShloMosaic.StableHlo.Predicate Cert.LibSumIdx3

/-! ## A class word as a signed 32-bit word -/

private theorem word_toNat (k : Fin 21) : (BitVec.ofNat 32 k.val).toNat = k.val := by
  rw [BitVec.toNat_ofNat]; exact Nat.mod_eq_of_lt (by have := k.isLt; omega)

/-- A class word is not negative … -/
private theorem word_not_neg (k : Fin 21) : IntOp.cmpi .slt (BitVec.ofNat 32 k.val) 0#32 = 0#1 := by
  refine eq_zero_of_ne_one fun hc => ?_
  have := (slt_iff_toNat (by rw [word_toNat]; have := k.isLt; omega) (by decide)).mp hc
  exact absurd this (Nat.not_lt_zero _)

/-- … is at least 0 … -/
private theorem word_ge_zero (k : Fin 21) : IntOp.cmpi .sge (BitVec.ofNat 32 k.val) 0#32 = 1#1 :=
  (sge_iff_toNat (by rw [word_toNat]; have := k.isLt; omega) (by decide)).mpr (Nat.zero_le _)

/-- … and at most 20. -/
private theorem word_le_twenty (k : Fin 21) : IntOp.cmpi .sle (BitVec.ofNat 32 k.val) 20#32 = 1#1 :=
  (sle_iff_toNat (by rw [word_toNat]; have := k.isLt; omega) (by decide)).mpr (by
    rw [word_toNat]; show k.val ≤ 20; have := k.isLt; omega)

/-- Read signed and clamped into [0, 20] it is the class. -/
private theorem word_clamp (k : Fin 21) : min (BitVec.ofNat 32 k.val).toInt.toNat 20 = k.val := by
  rw [toInt_ofNat_small k.val (by have := k.isLt; omega)]
  have := k.isLt
  simp only [Int.toNat_natCast]
  omega

/-! ## The and-reduce over the unit axis, read at (b, 0, h, w) -/

private theorem and_reduce_apply (x : IVec S8x1x512x512x1 1) (init : IVec S_ 1)
    (h' : S8x1x512x512x1.ReducesTo [4] S8x1x512x512) (hu : 0 < S_.numel) (b : Fin 8) (h w : Fin 512) :
    Host.reduce IntOp.andi x init h' hu (ix4 b (0 : Fin 1) h w)
      = IntOp.andi (x (ix5 b (0 : Fin 1) h w (0 : Fin 1))) (init (Shape.Idx.first hu)) := by
  have hr : S8x1x512x512x1.Reduces [4] S8x1x512x512 := by decide
  rw [Host.reduce_eq_fold_single IntOp.andi x init h' hr hu]
  have key : ∀ (i0 : BitVec 1) (g : Fin 1 → BitVec 1),
      (Finset.univ : Finset (Fin 1)).fold IntOp.andi i0 g = IntOp.andi (g 0) i0 := fun i0 g => by
    rw [Finset.univ_unique, Finset.fold_singleton]; rfl
  refine (key (init (Shape.Idx.first hu)) (x ∘ hr.lift (ix4 b (0 : Fin 1) h w))).trans ?_
  have hl : hr.lift (ix4 b (0 : Fin 1) h w) (0 : Fin 1) = ix5 b (0 : Fin 1) h w (0 : Fin 1) := by
    funext c; refine Fin.ext ?_
    match c with
    | ⟨0, _⟩ => rfl
    | ⟨1, _⟩ => rfl
    | ⟨2, _⟩ => rfl
    | ⟨3, _⟩ => rfl
    | ⟨4, _⟩ => rfl
  show IntOp.andi (x (hr.lift (ix4 b (0 : Fin 1) h w) (0 : Fin 1))) _ = _
  rw [hl]

/-! ## The gather of the take-along-axis, read at (b, 0, h, w)

Operand axes 0, 2, 3 are batching axes paired with the start indices' axes 0, 2, 3; operand axis 1 is collapsed and
is the one the start index names; every slice size is 1. So the operand index of result (b, 0, h, w) is
(b, clamp (idx (b, 0, h, w, 0)), h, w), the clamp into [0, 20]. -/

private abbrev GD : GatherDims S8x21x512x512 S8x1x512x512x1 S8x1x512x512 :=
  gather_S8x21x512x512_S8x1x512x512x1_S8x1x512x512_n_1_023_023_1_4_1111

private abbrev ax (n : Nat) (hn : n < 4 := by decide) : Fin S8x21x512x512.rank := ⟨n, hn⟩

section Gather
variable {wd : Nat} (idx : IVec S8x1x512x512x1 wd) (b : Fin 8) (h w : Fin 512)

/-- On a batching axis the start and the offset vanish: the coordinate is the batch coordinate. -/
private theorem gd_batch (n : Nat) (hn : n < 4) (hm : (⟨n, hn⟩ : Fin S8x21x512x512.rank) ∈ GD.operandBatchingDims) :
    GD.start (ix4 b (0 : Fin 1) h w) idx ⟨n, hn⟩ + GD.batchCoord (ix4 b (0 : Fin 1) h w) ⟨n, hn⟩
      + GD.offCoord (ix4 b (0 : Fin 1) h w) ⟨n, hn⟩ = GD.batchCoord (ix4 b (0 : Fin 1) h w) ⟨n, hn⟩ := by
  rw [GatherDims.start_batching _ _ _ _ hm,
    GatherDims.offCoord_eq_zero _ _ _ (fun hk => ((GatherDims.mem_sKept _ _).mp hk).2 hm)]
  simp only [Nat.zero_add, Nat.add_zero]

private theorem gd_b0 : GD.batchCoord (ix4 b (0 : Fin 1) h w) (ax 0) = b.val := by
  unfold GatherDims.batchCoord
  rw [dif_pos (by decide)]
  rfl

private theorem gd_b2 : GD.batchCoord (ix4 b (0 : Fin 1) h w) (ax 2) = h.val := by
  unfold GatherDims.batchCoord
  rw [dif_pos (by decide)]
  rfl

private theorem gd_b3 : GD.batchCoord (ix4 b (0 : Fin 1) h w) (ax 3) = w.val := by
  unfold GatherDims.batchCoord
  rw [dif_pos (by decide)]
  rfl

/-- On the collapsed axis the batch and offset coordinates vanish: the coordinate is the clamped start index. -/
private theorem gd_s1 : GD.start (ix4 b (0 : Fin 1) h w) idx (ax 1) + GD.batchCoord (ix4 b (0 : Fin 1) h w) (ax 1)
      + GD.offCoord (ix4 b (0 : Fin 1) h w) (ax 1) = min (idx (ix5 b (0 : Fin 1) h w (0 : Fin 1))).toInt.toNat 20 := by
  rw [GatherDims.batchCoord_eq_zero _ _ _ (by decide),
    GatherDims.offCoord_eq_zero _ _ _ (fun hk => ((GatherDims.mem_sKept _ _).mp hk).1 (by decide))]
  simp only [Nat.add_zero]
  unfold GatherDims.start
  rw [dif_pos (show ax 1 ∈ GD.startIndexMap by decide)]
  have hsi : GD.siIdx (ix4 b (0 : Fin 1) h w) ⟨List.idxOf (ax 1) GD.startIndexMap,
      List.idxOf_lt_length_iff.2 (show ax 1 ∈ GD.startIndexMap by decide)⟩ = ix5 b (0 : Fin 1) h w (0 : Fin 1) := by
    funext c; refine Fin.ext ?_
    match c with
    | ⟨0, _⟩ => rfl
    | ⟨1, _⟩ => rfl
    | ⟨2, _⟩ => rfl
    | ⟨3, _⟩ => rfl
    | ⟨4, _⟩ => rfl
  rw [hsi]
  rfl

/-- The gather at (b, 0, h, w), the clamped start index being the class `k`: the operand at (b, k, h, w). -/
private theorem gather_apply {α : Type} (x : S8x21x512x512.Idx → α) (k : Fin 21)
    (hk : min (idx (ix5 b (0 : Fin 1) h w (0 : Fin 1))).toInt.toNat 20 = k.val) :
    Host.gather GD x idx (ix4 b (0 : Fin 1) h w) = x (ix4 b k h w) := by
  unfold Host.gather
  congr 1
  funext a
  refine Fin.ext ?_
  show GD.start (ix4 b (0 : Fin 1) h w) idx a + GD.batchCoord (ix4 b (0 : Fin 1) h w) a + GD.offCoord (ix4 b (0 : Fin 1) h w) a = _
  match a with
  | ⟨0, _⟩ => exact (gd_batch idx b h w 0 (by decide) (by decide)).trans (gd_b0 b h w)
  | ⟨1, _⟩ => exact (gd_s1 idx b h w).trans hk
  | ⟨2, _⟩ => exact (gd_batch idx b h w 2 (by decide) (by decide)).trans (gd_b2 b h w)
  | ⟨3, _⟩ => exact (gd_batch idx b h w 3 (by decide) (by decide)).trans (gd_b3 b h w)

end Gather

/-! ## The layout operations' indices at a pixel -/

section Idx
variable (b : Fin 8) (h w : Fin 512)

private theorem idx32_at : idx_main_v32 (ix4 b (0 : Fin 1) h w) = ix3 b h w := by
  funext a
  match a with
  | ⟨0, _⟩ => rfl
  | ⟨1, _⟩ => rfl
  | ⟨2, _⟩ => rfl

private theorem idx5_at : idx_main_call2_v5 (ix5 b (0 : Fin 1) h w (0 : Fin 1)) = ix4 b (0 : Fin 1) h w := by
  funext a
  refine Fin.ext ?_
  have hb := b.isLt; have hh := h.isLt; have hw := w.isLt
  match a with
  | ⟨0, _⟩ => show ((((b.val * 1 + 0) * 512 + h.val) * 512 + w.val) * 1 + 0) / 262144 = b.val; omega
  | ⟨1, _⟩ => rfl
  | ⟨2, _⟩ => show ((((b.val * 1 + 0) * 512 + h.val) * 512 + w.val) * 1 + 0) / 512 % 512 = h.val; omega
  | ⟨3, _⟩ => show ((((b.val * 1 + 0) * 512 + h.val) * 512 + w.val) * 1 + 0) % 512 = w.val; omega

private theorem idx34_at : idx_main_v34 (ix3 b h w) = ix4 b (0 : Fin 1) h w := by
  funext a
  refine Fin.ext ?_
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

end Idx

variable (x0 : FVec Ideal S8x21x512x512 .f32) (x1 : IVec S8x512x512 32)

/-! ## The take-along-axis at a pixel whose label is the class `k` -/

section Pixel
variable (b : Fin 8) (h w : Fin 512) (k : Fin 21) (hk : x1 (ix3 b h w) = BitVec.ofNat 32 k.val)
include hk

/-- The broadcast labels at (b, 0, h, w). -/
private theorem v32_at : val_main_v32 (F := Ideal) x1 (ix4 b (0 : Fin 1) h w) = BitVec.ofNat 32 k.val := by
  rw [val_main_v32_apply, idx32_at, hk]

/-- The wrapped index keeps a label that is not negative. -/
private theorem v4_at : val_main_call2_v4 (F := Ideal) x1 (ix4 b (0 : Fin 1) h w) = BitVec.ofNat 32 k.val := by
  rw [val_main_call2_v4_apply, val_main_call2_v1_apply, v32_at x1 b h w k hk, val_main_call2_v0_apply,
    val_main_call2_c_apply, word_not_neg, select_zero]

/-- The start indices at (b, 0, h, w, 0). -/
private theorem v5_at : val_main_call2_v5 (F := Ideal) x1 (ix5 b (0 : Fin 1) h w (0 : Fin 1)) = BitVec.ofNat 32 k.val := by
  rw [val_main_call2_v5_apply, idx5_at, v4_at x1 b h w k hk]

/-- The bounds test passes. -/
private theorem v12_at : val_main_call2_v12 (F := Ideal) x1 (ix4 b (0 : Fin 1) h w) = 1#1 := by
  unfold val_main_call2_v12
  rw [and_reduce_apply, val_main_call2_v11_apply, val_main_call2_v7_apply, val_main_call2_v10_apply,
    v5_at x1 b h w k hk, val_main_call2_v6_apply, val_main_call2_c_2_apply, val_main_call2_v9_apply,
    val_main_call2_v8_apply, val_main_call2_c_1_apply, val_main_call2_c_3_apply, word_ge_zero, word_le_twenty]
  decide

/-- The gather reads the log-softmax at the labelled class. -/
private theorem v13_at : val_main_call2_v13 (F := Ideal) x0 x1 (ix4 b (0 : Fin 1) h w)
    = val_main_v0 (F := Ideal) x0 (ix4 b k h w) := by
  unfold val_main_call2_v13
  exact gather_apply (val_main_call2_v5 (F := Ideal) x1) b h w (val_main_v0 (F := Ideal) x0) k
    (by rw [v5_at x1 b h w k hk, word_clamp])

/-- The reference's cross entropy at the pixel is minus the log-softmax at the labelled class. -/
private theorem v35_at : val_main_v35 (F := Ideal) x0 x1 (ix3 b h w) = -(colLogp (colOf x0 b h w) k) := by
  rw [val_main_v35_apply, val_main_v34_apply, idx34_at, val_main_v33_apply, v12_at x1 b h w k hk, select_one,
    v13_at x0 x1 b h w k hk, RefSums.ref_logp]
  rfl

end Pixel

/-- The reference's cross entropy at pixel (b, h, w), every label being in range. -/
theorem ref_ce_pix (hrange : ∀ j, ∃ k : Fin 21, x1 j = BitVec.ofNat 32 k.val) (b : Fin 8) (h w : Fin 512) :
    val_main_v35 (F := Ideal) x0 x1 (ix3 b h w) = colCe (colOf x0 b h w) (x1 (ix3 b h w)) := by
  obtain ⟨k, hk⟩ := hrange (ix3 b h w)
  rw [v35_at x0 x1 b h w k hk, hk, colCe_label]

/-- The focal term's arithmetic at a real cross entropy: the host's power 2 is the square. -/
private theorem focal_arith (ce : Ideal .f32) (r : ℝ) (hr : ce = (r : EReal)) :
    FloatOps.mulf (FloatOps.mulf (FloatOps.ofBits .f32 0x3F800000#32)
        (FloatOps.hostPowf (FloatOps.subf (FloatOps.ofBits .f32 0x3F800000#32) (FloatOps.hostUnary .exp (FloatOps.hostNegf ce)))
          (FloatOps.ofBits .f32 0x40000000#32))) ce
      = (1 * ((1 - Ideal.exp (0 - ce)) * (1 - Ideal.exp (0 - ce)))) * ce := by
  subst hr
  simp only [Ideal.mulf_def, Ideal.subf_def, Ideal.ofBits_def, Ideal.hostPowf_def, Ideal.hostUnary_exp_def,
    Ideal.hostNegf_def, Ideal.negf_def, ColMath.ofBits_one_f32, zero_sub]
  have hd : (1 : EReal) - Ideal.exp (-(r : EReal)) = ((1 - Real.exp (-r) : ℝ) : EReal) := by
    rw [← EReal.coe_neg, Ideal.exp_coe, EReal.coe_sub, EReal.coe_one]
  rw [hd, pow_two_real]

/-- The reference's focal term at pixel (b, h, w), every score being finite and every label in range. -/
theorem ref_focal_pix (hfin : ∀ i, ∃ r : ℝ, x0 i = (r : EReal)) (hrange : ∀ j, ∃ k : Fin 21, x1 j = BitVec.ofNat 32 k.val)
    (b : Fin 8) (h w : Fin 512) :
    val_main_v46 (F := Ideal) x0 x1 (ix3 b h w) = colFocal (colOf x0 b h w) (x1 (ix3 b h w)) := by
  have hce := ref_ce_pix x0 x1 hrange b h w
  obtain ⟨k, hk⟩ := hrange (ix3 b h w)
  obtain ⟨l, hl⟩ := colLogp_real (col := colOf x0 b h w) (fun c => hfin (ix4 b c h w)) k
  have hr : colCe (colOf x0 b h w) (x1 (ix3 b h w)) = ((-l : ℝ) : EReal) := by
    rw [hk, colCe_label, hl, EReal.coe_neg]
  rw [val_main_v46_apply, val_main_v45_apply, val_main_v44_apply, val_main_cst_21_apply, val_main_v43_apply,
    val_main_v42_apply, val_main_cst_20_apply, val_main_v41_apply, val_main_v40_apply, val_main_cst_19_apply,
    val_main_v39_apply, val_main_v38_apply, hce]
  exact focal_arith _ (-l) hr

/-- The reference's cross-entropy total. -/
theorem ref_Ce (hrange : ∀ j, ∃ k : Fin 21, x1 j = BitVec.ofNat 32 k.val) :
    val_main_v36 (F := Ideal) x0 x1 = fun _ => specCe x0 x1 := by
  funext i
  rw [val_main_v36_apply, val_main_cst_17_apply, Ideal.ofBits_def, Ideal.ofBits_zero_f32, zero_add, sum_idx3]
  unfold specCe
  exact Finset.sum_congr rfl fun b _ => Finset.sum_congr rfl fun h _ => Finset.sum_congr rfl fun w _ =>
    ref_ce_pix x0 x1 hrange b h w

/-- The reference's focal total. -/
theorem ref_Fo (hfin : ∀ i, ∃ r : ℝ, x0 i = (r : EReal)) (hrange : ∀ j, ∃ k : Fin 21, x1 j = BitVec.ofNat 32 k.val) :
    val_main_v47 (F := Ideal) x0 x1 = fun _ => specFo x0 x1 := by
  funext i
  rw [val_main_v47_apply, val_main_cst_22_apply, Ideal.ofBits_def, Ideal.ofBits_zero_f32, zero_add, sum_idx3]
  unfold specFo
  exact Finset.sum_congr rfl fun b _ => Finset.sum_congr rfl fun h _ => Finset.sum_congr rfl fun w _ =>
    ref_focal_pix x0 x1 hfin hrange b h w

end Cert.ReferenceIdeal.RefCe

end
-- ==== Proof.RefTail.lean ====
/-
  The reference's result is the closing arithmetic `Combo.tail` of its five sums, and the printed precondition says
  that every score is finite and every label is a class index.
-/
import proofs.«412657_j78769700208763_2_alg».proof.Proof.RefCe
import proofs.«412657_j78769700208763_2_alg».proof.Proof.Gen.Pre_finite_inputs
import Idealize.ShloMosaic.Lib.ReduceAll
import Idealize.ShloMosaic.Lib.StableHlo.Predicate

noncomputable section

namespace Cert.ReferenceIdeal.RefTail

open Idealize.ShloMosaic Idealize.ShloMosaic.ValueIdx Cert.ReferenceIdeal Cert.ReferenceIdeal.ReadP Cert.Combo

/-- The loss as the reference computes it from its five sums: the same closing arithmetic as the kernel's. Stage by
    stage the reference's operations after the five sums are the operations of `tail`, on the same constants; the
    shape facts on the two sides are proofs of the same propositions. -/
theorem ref_tail (x0 : FVec Ideal S8x21x512x512 .f32) (x1 : IVec S8x512x512 32) :
    val_main_v55 (F := Ideal) x0 x1
      = tail Facts₀.bcast_S_S8x21 Facts₀.reducesTo_S8x21_S8_d1 Facts₀.reducesTo_S8_S_d0 Facts₀.h_S_
          (val_main_v4 (F := Ideal) x0 x1) (val_main_v5 (F := Ideal) x0) (val_main_v6 (F := Ideal) x1)
          (val_main_v36 (F := Ideal) x0 x1) (val_main_v47 (F := Ideal) x0 x1) := by
  unfold tail val_main_v55 val_main_v54 val_main_v53 val_main_v52 val_main_v51 val_main_v50 val_main_v49 val_main_v48
    val_main_v37 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_v13 val_main_v12 val_main_v11 val_main_v10 val_main_v9 val_main_v8 val_main_v7
  rfl

/-- An extended real whose absolute value `max a (-a)` is below +∞ is a real number: at either infinity the absolute
    value is +∞ itself. -/
private theorem real_of_abs_lt_top (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  unfold Ideal.cmp at h
  rw [StableHlo.Predicate.ofBool_eq_one_iff, decide_eq_true_eq] at h
  induction a using EReal.rec with
  | bot => simp at h
  | coe r => exact ⟨r, rfl⟩
  | top => simp at h

/-- A 32-bit word that, read signed, is at least 0 and below 21 is the word of one of the 21 class indices: its sign
    bit is clear, so its signed and unsigned readings agree. -/
private theorem class_of_range (w : BitVec 32) (h0 : IntOp.cmpi .sge w 0#32 = 1#1) (h21 : IntOp.cmpi .slt w 21#32 = 1#1) :
    ∃ k : Fin 21, w = BitVec.ofNat 32 k.val := by
  unfold IntOp.cmpi at h0 h21
  rw [StableHlo.Predicate.ofBool_eq_one_iff] at h0 h21
  simp only [BitVec.slt, BitVec.sle, decide_eq_true_eq] at h0 h21
  have h32 := w.isLt
  have hlt : w.toNat < 21 := by
    unfold BitVec.toInt at h0 h21
    split at h21 <;> simp at h0 h21 <;> omega
  refine ⟨⟨w.toNat, hlt⟩, ?_⟩
  apply BitVec.eq_of_toNat_eq
  simp only [BitVec.toNat_ofNat]
  omega

/-- What the printed precondition says of the two arrays: every score is a real number and every label word is one of
    the 21 class indices. The predicate is the conjunction of three conjunctions over all entries: |score| < +∞,
    label ≥ 0, label < 21; each conjunction being 1 gives its comparison at every entry. -/
theorem pre_decode [Cert.Pre_finite_inputs.Facts] (x0 : FVec Ideal Cert.Pre_finite_inputs.S8x21x512x512 .f32)
    (x1 : IVec Cert.Pre_finite_inputs.S8x512x512 32)
    (hpre : Cert.Pre_finite_inputs.fn (F := Ideal) x0 x1 = fun _ => 1#1) :
    (∀ i, ∃ r : ℝ, x0 i = (r : EReal)) ∧ (∀ j, ∃ k : Fin 21, x1 j = BitVec.ofNat 32 k.val) := by
  -- the scalar shape has one index
  haveI : Subsingleton Cert.Pre_finite_inputs.S_.Idx := ⟨fun a b => funext fun d => d.elim0⟩
  have e := congrFun hpre ValueIdx.ix0
  dsimp only [Cert.Pre_finite_inputs.fn] at e
  change IntOp.andi (IntOp.andi _ _) _ = 1#1 at e
  rw [IntOp.andi_eq_one, IntOp.andi_eq_one] at e
  obtain ⟨⟨hfin, hge⟩, hlt⟩ := e
  refine ⟨fun i => ?_, fun j => ?_⟩
  · exact real_of_abs_lt_top (x0 i) (Host.reduce_andi_all _ _ _ _ _ hfin i)
  · exact class_of_range (x1 j) (Host.reduce_andi_all _ _ _ _ _ hge j) (Host.reduce_andi_all _ _ _ _ _ hlt j)

end Cert.ReferenceIdeal.RefTail

end
-- ==== Proof.lean ====
/-
  The certificate's claim. The kernel streams the scores in 64 bands of 8 rows; per band it takes the log-softmax over
  the 21 classes, the softmax and the labels' one-hot rows, and adds five partial sums to accumulators that the first
  band resets: per (batch, class) the sums of prob · hot, of prob and of hot, and the totals of the per-pixel cross
  entropy and focal term. The host lines after it form the Dice and Jaccard losses from the three arrays and the two
  means from the totals, and add the four. The reference computes the same five sums over the whole arrays at once and
  closes with the same arithmetic, except that it reads the labelled class's log-probability by an indexed read where the
  kernel sums the one-hot weighted column, and squares by a power where the kernel multiplies: equal for labels that are
  class indices (the added precondition) and finite scores. Sums over the extended reals reorder freely, so the band
  by band accumulation is the sum over all rows.
-/
import proofs.«412657_j78769700208763_2_alg».proof.Defs
import proofs.«412657_j78769700208763_2_alg».proof.Proof.Gen.Kernel
import proofs.«412657_j78769700208763_2_alg».proof.Proof.Gen.Kernel.Frame
import proofs.«412657_j78769700208763_2_alg».proof.Proof.Gen.KernelIdeal
import proofs.«412657_j78769700208763_2_alg».proof.Proof.Gen.KernelIdeal.Frame
import proofs.«412657_j78769700208763_2_alg».proof.Proof.Gen.ReferenceIdeal
import proofs.«412657_j78769700208763_2_alg».proof.Proof.Gen.Pre_finite_inputs
import proofs.«412657_j78769700208763_2_alg».proof.Proof.KRun
import proofs.«412657_j78769700208763_2_alg».proof.Proof.RefTail
import Idealize.ShloMosaic.Adequacy
import Idealize.ShloMosaic.Init

noncomputable section

namespace Cert.Proof

open Idealize.ShloMosaic Idealize.SL.Sem

/-- The reference's result is the kernel's function of the argument arrays, for finite scores and labels in range. -/
theorem ref_result (x0 : FVec Ideal Cert.ReferenceIdeal.S8x21x512x512 .f32) (x1 : IVec Cert.ReferenceIdeal.S8x512x512 32)
    (hfin : ∀ i, ∃ r : ℝ, x0 i = (r : EReal)) (hrange : ∀ j, ∃ k : Fin 21, x1 j = BitVec.ofNat 32 k.val) :
    Cert.ReferenceIdeal.ReadP.val_main_v55 (F := Ideal) x0 x1 = Cert.KernelIdeal.KRun.result x0 x1 := by
  rw [Cert.ReferenceIdeal.RefTail.ref_tail, Cert.ReferenceIdeal.RefSums.ref_I, Cert.ReferenceIdeal.RefSums.ref_P,
    Cert.ReferenceIdeal.RefSums.ref_T, Cert.ReferenceIdeal.RefCe.ref_Ce x0 x1 hrange,
    Cert.ReferenceIdeal.RefCe.ref_Fo x0 x1 hfin hrange]
  rfl

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.RunP.run (F := Ideal) m ρ)
  · intro m ρ m' ρ' hpre hagree
    refine ⟨fun c => Cert.KernelIdeal.KRun.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.KRun.run m ρ, ?_⟩
    refine (θ_run Cert.ReferenceIdeal.defs _ _).mono (fun _ h c => ⟨(h c).1.trans ?_, (h c).2⟩)
      (Cert.ReferenceIdeal.RunP.run (F := Ideal) m' ρ')
    obtain ⟨hfin, hrange⟩ := Cert.ReferenceIdeal.RefTail.pre_decode _ _ (hpre c)
    rw [Cert.ReferenceIdeal.ReadP.val_main_v55_eq, (hagree c).1, (hagree c).2]
    exact ref_result _ _ hfin hrange⟩

end Cert.Proof

end
